-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x256x256 : Shape := ⟨4, ![4, 16, 256, 256]⟩
abbrev S_ : Shape := ⟨0, ![]⟩

class Facts : Prop where
  bcast_S_S4x16x256x256 : S_.BroadcastsInDim S4x16x256x256 (![] : Fin 0 → Fin S4x16x256x256.rank)
  reducesTo_S4x16x256x256_S_d0_1_2_3 : S4x16x256x256.ReducesTo [0, 1, 2, 3] S_
  h_S_ : 0 < S_.numel

variable [Facts]

def fn {F : FTy → Type} [FloatOps F] (main_arg0 : FVec F S4x16x256x256 .f32) (main_arg1 : FVec F S4x16x256x256 .f32) : IVec S_ 1 :=
  let main_v0 : FVec F S4x16x256x256 .f32 := Host.absf main_arg0
  let main_cst : FVec F S_ .f32 := constant S_ .f32 0x7F800000#32
  let main_v1 : FVec F S4x16x256x256 .f32 := broadcastInDim S4x16x256x256 ![] bcast_S_S4x16x256x256 main_cst
  let main_v2 : IVec S4x16x256x256 1 := cmpf .olt main_v0 main_v1
  let main_c : IVec S_ 1 := constantI S_ 1 1#1
  let main_v3 : IVec S_ 1 := (fun x v => Host.reduce IntOp.andi x v reducesTo_S4x16x256x256_S_d0_1_2_3 h_S_) main_v2 main_c
  let main_v4 : FVec F S4x16x256x256 .f32 := Host.absf main_arg1
  let main_cst_0 : FVec F S_ .f32 := constant S_ .f32 0x7F800000#32
  let main_v5 : FVec F S4x16x256x256 .f32 := broadcastInDim S4x16x256x256 ![] bcast_S_S4x16x256x256 main_cst_0
  let main_v6 : IVec S4x16x256x256 1 := cmpf .olt main_v4 main_v5
  let main_c_1 : IVec S_ 1 := constantI S_ 1 1#1
  let main_v7 : IVec S_ 1 := (fun x v => Host.reduce IntOp.andi x v reducesTo_S4x16x256x256_S_d0_1_2_3 h_S_) main_v6 main_c_1
  let main_v8 : IVec S_ 1 := andi main_v3 main_v7
  main_v8
-- ==== Kernel.lean ====
abbrev S4x16x256x256 : Shape := ⟨4, ![4, 16, 256, 256]⟩
abbrev S64x256x256 : Shape := ⟨3, ![64, 256, 256]⟩
abbrev S64x9x256x256 : Shape := ⟨4, ![64, 9, 256, 256]⟩
abbrev S2x256x256 : Shape := ⟨3, ![2, 256, 256]⟩
abbrev S2x9x256x256 : Shape := ⟨4, ![2, 9, 256, 256]⟩
abbrev S1x256x256 : Shape := ⟨3, ![1, 256, 256]⟩
abbrev S256x256 : Shape := ⟨2, ![256, 256]⟩
abbrev S1x256 : Shape := ⟨2, ![1, 256]⟩
abbrev S255x256 : Shape := ⟨2, ![255, 256]⟩
abbrev S256x1 : Shape := ⟨2, ![256, 1]⟩
abbrev S256x255 : Shape := ⟨2, ![256, 255]⟩
abbrev S1x1x256x256 : Shape := ⟨4, ![1, 1, 256, 256]⟩
abbrev S4x16x9x256x256 : Shape := ⟨5, ![4, 16, 9, 256, 256]⟩

abbrev nBuf : Space → Nat
  | .hbm => 8
  | .vmem => 8
  | .smem => 0
  | _ => 0

abbrev bufTy : (tb : Table) → Fin (tcTables nBuf tb) → BufTy
  | .hbm, ⟨0, _⟩ => ⟨S4x16x256x256, .f32⟩
  | .hbm, ⟨1, _⟩ => ⟨S4x16x256x256, .f32⟩
  | .hbm, ⟨2, _⟩ => ⟨S64x256x256, .f32⟩
  | .hbm, ⟨3, _⟩ => ⟨S64x256x256, .f32⟩
  | .hbm, ⟨4, _⟩ => ⟨S64x9x256x256, .f32⟩
  | .hbm, ⟨5, _⟩ => ⟨S64x9x256x256, .f32⟩
  | .hbm, ⟨6, _⟩ => ⟨S4x16x9x256x256, .f32⟩
  | .hbm, ⟨7, _⟩ => ⟨S4x16x9x256x256, .f32⟩
  | .local _ .vmem, ⟨0, _⟩ => ⟨S2x256x256, .f32⟩
  | .local _ .vmem, ⟨1, _⟩ => ⟨S2x256x256, .f32⟩
  | .local _ .vmem, ⟨2, _⟩ => ⟨S2x256x256, .f32⟩
  | .local _ .vmem, ⟨3, _⟩ => ⟨S2x256x256, .f32⟩
  | .local _ .vmem, ⟨4, _⟩ => ⟨S2x9x256x256, .f32⟩
  | .local _ .vmem, ⟨5, _⟩ => ⟨S2x9x256x256, .f32⟩
  | .local _ .vmem, ⟨6, _⟩ => ⟨S2x9x256x256, .f32⟩
  | .local _ .vmem, ⟨7, _⟩ => ⟨S2x9x256x256, .f32⟩
  | _, _ => ⟨S4x16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x9x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x9x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x16x256x256_S64x256x256 : S4x16x256x256.ShapeCasts S64x256x256
  inb_S2x256x256_S1x256x256_0_0_0 : ∀ a, (![0, 0, 0] : Fin 3 → Nat) a + S1x256x256.size a ≤ S2x256x256.size a
  h_S1x256x256 : 0 < S1x256x256.numel
  shapeCasts_S1x256x256_S256x256 : S1x256x256.ShapeCasts S256x256
  slices_S256x256_o0_0_S255x256 : S256x256.Slices ![0, 0] S255x256
  concatenates_S1x256_S255x256_S256x256_d0 : Shape.Concatenates [S1x256, S255x256] S256x256 0
  slices_S256x256_o0_0_S256x255 : S256x256.Slices ![0, 0] S256x255
  concatenates_S256x1_S256x255_S256x256_d1 : Shape.Concatenates [S256x1, S256x255] S256x256 1
  inb_S2x9x256x256_S1x1x256x256_0_0_0_0 : ∀ a, (![0, 0, 0, 0] : Fin 4 → Nat) a + S1x1x256x256.size a ≤ S2x9x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  inb_S2x9x256x256_S1x1x256x256_0_1_0_0 : ∀ a, (![0, 1, 0, 0] : Fin 4 → Nat) a + S1x1x256x256.size a ≤ S2x9x256x256.size a
  slices_S256x256_o0_1_S256x255 : S256x256.Slices ![0, 1] S256x255
  concatenates_S256x255_S256x1_S256x256_d1 : Shape.Concatenates [S256x255, S256x1] S256x256 1
  inb_S2x9x256x256_S1x1x256x256_0_2_0_0 : ∀ a, (![0, 2, 0, 0] : Fin 4 → Nat) a + S1x1x256x256.size a ≤ S2x9x256x256.size a
  inb_S2x9x256x256_S1x1x256x256_0_3_0_0 : ∀ a, (![0, 3, 0, 0] : Fin 4 → Nat) a + S1x1x256x256.size a ≤ S2x9x256x256.size a
  inb_S2x9x256x256_S1x1x256x256_0_4_0_0 : ∀ a, (![0, 4, 0, 0] : Fin 4 → Nat) a + S1x1x256x256.size a ≤ S2x9x256x256.size a
  inb_S2x9x256x256_S1x1x256x256_0_5_0_0 : ∀ a, (![0, 5, 0, 0] : Fin 4 → Nat) a + S1x1x256x256.size a ≤ S2x9x256x256.size a
  slices_S256x256_o1_0_S255x256 : S256x256.Slices ![1, 0] S255x256
  concatenates_S255x256_S1x256_S256x256_d0 : Shape.Concatenates [S255x256, S1x256] S256x256 0
  inb_S2x9x256x256_S1x1x256x256_0_6_0_0 : ∀ a, (![0, 6, 0, 0] : Fin 4 → Nat) a + S1x1x256x256.size a ≤ S2x9x256x256.size a
  inb_S2x9x256x256_S1x1x256x256_0_7_0_0 : ∀ a, (![0, 7, 0, 0] : Fin 4 → Nat) a + S1x1x256x256.size a ≤ S2x9x256x256.size a
  inb_S2x9x256x256_S1x1x256x256_0_8_0_0 : ∀ a, (![0, 8, 0, 0] : Fin 4 → Nat) a + S1x1x256x256.size a ≤ S2x9x256x256.size a
  inb_S2x256x256_S1x256x256_1_0_0 : ∀ a, (![1, 0, 0] : Fin 3 → Nat) a + S1x256x256.size a ≤ S2x256x256.size a
  inb_S2x9x256x256_S1x1x256x256_1_0_0_0 : ∀ a, (![1, 0, 0, 0] : Fin 4 → Nat) a + S1x1x256x256.size a ≤ S2x9x256x256.size a
  inb_S2x9x256x256_S1x1x256x256_1_1_0_0 : ∀ a, (![1, 1, 0, 0] : Fin 4 → Nat) a + S1x1x256x256.size a ≤ S2x9x256x256.size a
  inb_S2x9x256x256_S1x1x256x256_1_2_0_0 : ∀ a, (![1, 2, 0, 0] : Fin 4 → Nat) a + S1x1x256x256.size a ≤ S2x9x256x256.size a
  inb_S2x9x256x256_S1x1x256x256_1_3_0_0 : ∀ a, (![1, 3, 0, 0] : Fin 4 → Nat) a + S1x1x256x256.size a ≤ S2x9x256x256.size a
  inb_S2x9x256x256_S1x1x256x256_1_4_0_0 : ∀ a, (![1, 4, 0, 0] : Fin 4 → Nat) a + S1x1x256x256.size a ≤ S2x9x256x256.size a
  inb_S2x9x256x256_S1x1x256x256_1_5_0_0 : ∀ a, (![1, 5, 0, 0] : Fin 4 → Nat) a + S1x1x256x256.size a ≤ S2x9x256x256.size a
  inb_S2x9x256x256_S1x1x256x256_1_6_0_0 : ∀ a, (![1, 6, 0, 0] : Fin 4 → Nat) a + S1x1x256x256.size a ≤ S2x9x256x256.size a
  inb_S2x9x256x256_S1x1x256x256_1_7_0_0 : ∀ a, (![1, 7, 0, 0] : Fin 4 → Nat) a + S1x1x256x256.size a ≤ S2x9x256x256.size a
  inb_S2x9x256x256_S1x1x256x256_1_8_0_0 : ∀ a, (![1, 8, 0, 0] : Fin 4 → Nat) a + S1x1x256x256.size a ≤ S2x9x256x256.size a
  shapeCasts_S64x9x256x256_S4x16x9x256x256 : S64x9x256x256.ShapeCasts S4x16x9x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x256.size a ≤ S64x256x256.size a
  hwx0_0 : ∀ i : grid0.Coords, EltTy.bits .f32 = 32 ∨ (Rect.block (s := S64x256x256) S2x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x256.size a ≤ S64x256x256.size a
  hwx0_1 : ∀ i : grid0.Coords, EltTy.bits .f32 = 32 ∨ (Rect.block (s := S64x256x256) S2x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x9x256x256.size a ≤ S64x9x256x256.size a
  hwx0_2 : ∀ i : grid0.Coords, EltTy.bits .f32 = 32 ∨ (Rect.block (s := S64x9x256x256) S2x9x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x9x256x256.size a ≤ S64x9x256x256.size a
  hwx0_3 : ∀ i : grid0.Coords, EltTy.bits .f32 = 32 ∨ (Rect.block (s := S64x9x256x256) S2x9x256x256.size (cc0_transform_3 i) (hinb0_3 i)).WholeWords (EltTy.packing .f32)

variable [Facts₀]

abbrev win0_0 : Pipeline.Window sig grid0 :=
  Pipeline.Window.ofSpec (Memref.whole main_v0) S2x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2x9x256x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2x9x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x256x256 : Shape := ⟨4, ![4, 16, 256, 256]⟩
abbrev S_ : Shape := ⟨0, ![]⟩
abbrev S4x16x258x258 : Shape := ⟨4, ![4, 16, 258, 258]⟩
abbrev S4x16x1x256x256 : Shape := ⟨5, ![4, 16, 1, 256, 256]⟩
abbrev S4x16x9x256x256 : Shape := ⟨5, ![4, 16, 9, 256, 256]⟩
abbrev S1 : Shape := ⟨1, ![1]⟩

abbrev nBuf : Space → Nat
  | .hbm => 62
  | .vmem => 0
  | .smem => 0
  | _ => 0

abbrev bufTy : (tb : Table) → Fin (tcTables nBuf tb) → BufTy
  | .hbm, ⟨0, _⟩ => ⟨S4x16x256x256, .f32⟩
  | .hbm, ⟨1, _⟩ => ⟨S4x16x256x256, .f32⟩
  | .hbm, ⟨2, _⟩ => ⟨S_, .i32⟩
  | .hbm, ⟨3, _⟩ => ⟨S_, .f32⟩
  | .hbm, ⟨4, _⟩ => ⟨S4x16x258x258, .f32⟩
  | .hbm, ⟨5, _⟩ => ⟨S4x16x256x256, .f32⟩
  | .hbm, ⟨6, _⟩ => ⟨S4x16x256x256, .f32⟩
  | .hbm, ⟨7, _⟩ => ⟨S4x16x256x256, .f32⟩
  | .hbm, ⟨8, _⟩ => ⟨S4x16x256x256, .f32⟩
  | .hbm, ⟨9, _⟩ => ⟨S4x16x256x256, .f32⟩
  | .hbm, ⟨10, _⟩ => ⟨S4x16x256x256, .f32⟩
  | .hbm, ⟨11, _⟩ => ⟨S4x16x256x256, .f32⟩
  | .hbm, ⟨12, _⟩ => ⟨S4x16x256x256, .f32⟩
  | .hbm, ⟨13, _⟩ => ⟨S4x16x256x256, .f32⟩
  | .hbm, ⟨14, _⟩ => ⟨S4x16x1x256x256, .f32⟩
  | .hbm, ⟨15, _⟩ => ⟨S4x16x1x256x256, .f32⟩
  | .hbm, ⟨16, _⟩ => ⟨S4x16x1x256x256, .f32⟩
  | .hbm, ⟨17, _⟩ => ⟨S4x16x1x256x256, .f32⟩
  | .hbm, ⟨18, _⟩ => ⟨S4x16x1x256x256, .f32⟩
  | .hbm, ⟨19, _⟩ => ⟨S4x16x1x256x256, .f32⟩
  | .hbm, ⟨20, _⟩ => ⟨S4x16x1x256x256, .f32⟩
  | .hbm, ⟨21, _⟩ => ⟨S4x16x1x256x256, .f32⟩
  | .hbm, ⟨22, _⟩ => ⟨S4x16x1x256x256, .f32⟩
  | .hbm, ⟨23, _⟩ => ⟨S4x16x9x256x256, .f32⟩
  | .hbm, ⟨24, _⟩ => ⟨S_, .i32⟩
  | .hbm, ⟨25, _⟩ => ⟨S_, .f32⟩
  | .hbm, ⟨26, _⟩ => ⟨S4x16x258x258, .f32⟩
  | .hbm, ⟨27, _⟩ => ⟨S4x16x256x256, .f32⟩
  | .hbm, ⟨28, _⟩ => ⟨S4x16x256x256, .f32⟩
  | .hbm, ⟨29, _⟩ => ⟨S4x16x256x256, .f32⟩
  | .hbm, ⟨30, _⟩ => ⟨S4x16x256x256, .f32⟩
  | .hbm, ⟨31, _⟩ => ⟨S4x16x256x256, .f32⟩
  | .hbm, ⟨32, _⟩ => ⟨S4x16x256x256, .f32⟩
  | .hbm, ⟨33, _⟩ => ⟨S4x16x256x256, .f32⟩
  | .hbm, ⟨34, _⟩ => ⟨S4x16x256x256, .f32⟩
  | .hbm, ⟨35, _⟩ => ⟨S4x16x256x256, .f32⟩
  | .hbm, ⟨36, _⟩ => ⟨S4x16x1x256x256, .f32⟩
  | .hbm, ⟨37, _⟩ => ⟨S4x16x1x256x256, .f32⟩
  | .hbm, ⟨38, _⟩ => ⟨S4x16x1x256x256, .f32⟩
  | .hbm, ⟨39, _⟩ => ⟨S4x16x1x256x256, .f32⟩
  | .hbm, ⟨40, _⟩ => ⟨S4x16x1x256x256, .f32⟩
  | .hbm, ⟨41, _⟩ => ⟨S4x16x1x256x256, .f32⟩
  | .hbm, ⟨42, _⟩ => ⟨S4x16x1x256x256, .f32⟩
  | .hbm, ⟨43, _⟩ => ⟨S4x16x1x256x256, .f32⟩
  | .hbm, ⟨44, _⟩ => ⟨S4x16x1x256x256, .f32⟩
  | .hbm, ⟨45, _⟩ => ⟨S4x16x9x256x256, .f32⟩
  | .hbm, ⟨46, _⟩ => ⟨S4x16x1x256x256, .f32⟩
  | .hbm, ⟨47, _⟩ => ⟨S4x16x1x256x256, .f32⟩
  | .hbm, ⟨48, _⟩ => ⟨S4x16x9x256x256, .f32⟩
  | .hbm, ⟨49, _⟩ => ⟨S4x16x9x256x256, .f32⟩
  | .hbm, ⟨50, _⟩ => ⟨S4x16x1x256x256, .f32⟩
  | .hbm, ⟨51, _⟩ => ⟨S4x16x256x256, .f32⟩
  | .hbm, ⟨52, _⟩ => ⟨S_, .i32⟩
  | .hbm, ⟨53, _⟩ => ⟨S1, .i32⟩
  | .hbm, ⟨54, _⟩ => ⟨S4x16x9x256x256, .f32⟩
  | .hbm, ⟨55, _⟩ => ⟨S4x16x9x256x256, .f32⟩
  | .hbm, ⟨56, _⟩ => ⟨S4x16x9x256x256, .f32⟩
  | .hbm, ⟨57, _⟩ => ⟨S4x16x1x256x256, .f32⟩
  | .hbm, ⟨58, _⟩ => ⟨S4x16x256x256, .f32⟩
  | .hbm, ⟨59, _⟩ => ⟨S_, .i32⟩
  | .hbm, ⟨60, _⟩ => ⟨S1, .i32⟩
  | .hbm, ⟨61, _⟩ => ⟨S4x16x9x256x256, .f32⟩
  | _, _ => ⟨S4x16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_call1_v0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_c_1 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_c_2 : Ref sig .tc := ⟨.hbm, 59, rfl⟩
abbrev main_v52 : Ref sig .tc := ⟨.hbm, 60, rfl⟩
abbrev main_v53 : Ref sig .tc := ⟨.hbm, 61, rfl⟩

abbrev nD : Nat := 1
abbrev τ : Topo := Topo.v7x

variable {F : FTy → Type} [FloatOps F]

class Facts₀ : Prop where
  pads_S4x16x256x256_S4x16x258x258_000_000_110_110 : S4x16x256x256.Pads (![0, 0, 1, 1] : Fin 4 → Nat) ![0, 0, 1, 1] ![0, 0, 0, 0] S4x16x258x258
  h_S_ : 0 < S_.numel
  slices_S4x16x258x258_S4x16x256x256_0_0_0_0 : S4x16x258x258.Slices ![0, 0, 0, 0] S4x16x256x256
  slices_S4x16x258x258_S4x16x256x256_0_0_0_1 : S4x16x258x258.Slices ![0, 0, 0, 1] S4x16x256x256
  slices_S4x16x258x258_S4x16x256x256_0_0_0_2 : S4x16x258x258.Slices ![0, 0, 0, 2] S4x16x256x256
  slices_S4x16x258x258_S4x16x256x256_0_0_1_0 : S4x16x258x258.Slices ![0, 0, 1, 0] S4x16x256x256
  slices_S4x16x258x258_S4x16x256x256_0_0_1_1 : S4x16x258x258.Slices ![0, 0, 1, 1] S4x16x256x256
  slices_S4x16x258x258_S4x16x256x256_0_0_1_2 : S4x16x258x258.Slices ![0, 0, 1, 2] S4x16x256x256
  slices_S4x16x258x258_S4x16x256x256_0_0_2_0 : S4x16x258x258.Slices ![0, 0, 2, 0] S4x16x256x256
  slices_S4x16x258x258_S4x16x256x256_0_0_2_1 : S4x16x258x258.Slices ![0, 0, 2, 1] S4x16x256x256
  slices_S4x16x258x258_S4x16x256x256_0_0_2_2 : S4x16x258x258.Slices ![0, 0, 2, 2] S4x16x256x256
  bcast_S4x16x256x256_S4x16x1x256x256_0_1_3_4 : S4x16x256x256.BroadcastsInDim S4x16x1x256x256 (![0, 1, 3, 4] : Fin 4 → Fin S4x16x1x256x256.rank)
  concatenates_S4x16x1x256x256_S4x16x1x256x256_S4x16x1x256x256_S4x16x1x256x256_S4x16x1x256x256_S4x16x1x256x256_S4x16x1x256x256_S4x16x1x256x256_S4x16x1x256x256_S4x16x9x256x256_d2 : Shape.Concatenates [S4x16x1x256x256, S4x16x1x256x256, S4x16x1x256x256, S4x16x1x256x256, S4x16x1x256x256, S4x16x1x256x256, S4x16x1x256x256, S4x16x1x256x256, S4x16x1x256x256] S4x16x9x256x256 2
  slices_S4x16x9x256x256_S4x16x1x256x256_0_0_4_0_0 : S4x16x9x256x256.Slices ![0, 0, 4, 0, 0] S4x16x1x256x256
  bcast_S4x16x1x256x256_S4x16x9x256x256_0_1_2_3_4 : S4x16x1x256x256.BroadcastsInDim S4x16x9x256x256 (![0, 1, 2, 3, 4] : Fin 5 → Fin S4x16x9x256x256.rank)
  shapeCasts_S4x16x1x256x256_S4x16x256x256 : S4x16x1x256x256.ShapeCasts S4x16x256x256
  bcast_S_S1 : S_.BroadcastsInDim S1 (![] : Fin 0 → Fin S1.rank)
  scatter_S4x16x9x256x256_S1_S4x16x256x256_0123_2_2_0_wf : ScatterDims.WF S4x16x9x256x256 S1 S4x16x256x256 [0, 1, 2, 3] [2] [2] 0

variable [Facts₀]

def scatter_S4x16x9x256x256_S1_S4x16x256x256_0123_2_2_0 : ScatterDims S4x16x9x256x256 S1 S4x16x256x256 where
  updateWindowDims := [0, 1, 2, 3]
  insertedWindowDims := [2]
  scatterDimsToOperandDims := [2]
  indexVectorDim := 0
  wf := scatter_S4x16x9x256x256_S1_S4x16x256x256_0123_2_2_0_wf

class Facts : Prop extends Facts₀ where

variable [Facts]
-- ==== Proof.Taps.lean ====
/-
  The 3×3 neighbourhood product, as one function of an image.

  An image is a 256 × 256 array of extended reals. Pad it by one ring of zeros; for a tap `k = 3·ki + kj`
  (`ki, kj ∈ {0, 1, 2}`) the neighbour of pixel `(p, q)` is the padded image at `(p + ki, q + kj)`, that is the image
  at `(p + ki − 1, q + kj − 1)` when that pixel exists and `0` when it does not. The centre tap `k = 4` keeps the pixel;
  every other tap multiplies the neighbour by the pixel, neighbour first.
-/
import Idealize.ShloMosaic.Lib.ValueIdx

noncomputable section

namespace Cert.Taps

open Idealize.ShloMosaic Idealize.ShloMosaic.ValueIdx

/-- The zero-padded image read one ring in: row `p + ki − 1`, column `q + kj − 1`, zero outside the image. -/
def nbr (x : Fin 256 → Fin 256 → EReal) (ki kj : Nat) (p q : Fin 256) : EReal :=
  if h : (1 ≤ p.val + ki ∧ p.val + ki ≤ 256) ∧ (1 ≤ q.val + kj ∧ q.val + kj ≤ 256) then
    x ⟨p.val + ki - 1, by omega⟩ ⟨q.val + kj - 1, by omega⟩
  else 0

/-- Tap `k` of the neighbourhood product at pixel `(p, q)`: the pixel itself at the centre tap, the neighbour times
    the pixel at the other eight. -/
def tap (x : Fin 256 → Fin 256 → EReal) (k : Fin 9) (p q : Fin 256) : EReal :=
  if k.val = 4 then x p q else nbr x (k.val / 3) (k.val % 3) p q * x p q

/-- A batch of 4 × 16 images. -/
abbrev SImg : Shape := ⟨4, ![4, 16, 256, 256]⟩
/-- Its nine taps. -/
abbrev STap : Shape := ⟨5, ![4, 16, 9, 256, 256]⟩
/-- The same 64 images in one row. -/
abbrev SImgFlat : Shape := ⟨3, ![64, 256, 256]⟩
/-- Their taps. -/
abbrev STapFlat : Shape := ⟨4, ![64, 9, 256, 256]⟩

/-- The nine taps of every image of the batch. -/
def G (x : SImg.Idx → EReal) : STap.Idx → EReal := fun i =>
  tap (fun p q => x (ix4 (i 0 : Fin 4) (i 1 : Fin 16) p q)) (i 2 : Fin 9) (i 3 : Fin 256) (i 4 : Fin 256)

/-- The same over the images in one row. -/
def Gflat (y : SImgFlat.Idx → EReal) : STapFlat.Idx → EReal := fun i =>
  tap (fun p q => y (ix3 (i 0 : Fin 64) p q)) (i 1 : Fin 9) (i 2 : Fin 256) (i 3 : Fin 256)

end Cert.Taps

end
-- ==== Proof.ShiftOps.lean ====
/-
  One-step shifts of an image with a fill value entering at the border, as the vector unit spells them: cut off the
  last (or first) row or column, and join a row or column of the fill value on the other side. Each of the four is
  read as a function of the pixel index; composed and with fill value zero they are the neighbours of `Taps.nbr`.
-/
import proofs.«149121_j76270029242959_1_alg».proof.Proof.Taps
import Idealize.ShloMosaic.Lib.Pipeline.Value
import Idealize.ShloMosaic.Lib.ValueLayout

noncomputable section

namespace Cert.Taps

open Idealize.ShloMosaic Idealize.ShloMosaic.ValueIdx

/-- One image, one row, all rows but one, one column, all columns but one. -/
abbrev SI : Shape := ⟨2, ![256, 256]⟩
abbrev SRow : Shape := ⟨2, ![1, 256]⟩
abbrev SRows : Shape := ⟨2, ![255, 256]⟩
abbrev SCol : Shape := ⟨2, ![256, 1]⟩
abbrev SCols : Shape := ⟨2, ![256, 255]⟩

variable {α : Type}

/-- Rows moved down by one: pixel `(p, q)` reads `(p − 1, q)`, the fill value in row 0. -/
def dn (z : α) (v : SI.Idx → α) : SI.Idx → α := fun j =>
  if h : 1 ≤ (j 0).val then v (ix2 (⟨(j 0).val - 1, by have := idx2_lt0 j; omega⟩ : Fin 256) (j 1 : Fin 256)) else z
/-- Rows moved up by one: pixel `(p, q)` reads `(p + 1, q)`, the fill value in row 255. -/
def up (z : α) (v : SI.Idx → α) : SI.Idx → α := fun j =>
  if h : (j 0).val + 1 < 256 then v (ix2 (⟨(j 0).val + 1, h⟩ : Fin 256) (j 1 : Fin 256)) else z
/-- Columns moved right by one: pixel `(p, q)` reads `(p, q − 1)`, the fill value in column 0. -/
def rt (z : α) (v : SI.Idx → α) : SI.Idx → α := fun j =>
  if h : 1 ≤ (j 1).val then v (ix2 (j 0 : Fin 256) (⟨(j 1).val - 1, by have := idx2_lt1 j; omega⟩ : Fin 256)) else z
/-- Columns moved left by one: pixel `(p, q)` reads `(p, q + 1)`, the fill value in column 255. -/
def lf (z : α) (v : SI.Idx → α) : SI.Idx → α := fun j =>
  if h : (j 1).val + 1 < 256 then v (ix2 (j 0 : Fin 256) (⟨(j 1).val + 1, h⟩ : Fin 256)) else z

/-- Reading an image at two pixel indices with equal coordinates gives the same value. -/
private theorem rd (v : SI.Idx → α) {a a' b b' : Fin 256} (ha : a.val = a'.val) (hb : b.val = b'.val) :
    v (ix2 a b) = v (ix2 a' b') := by
  obtain rfl := Fin.ext ha
  obtain rfl := Fin.ext hb
  rfl

/-! The four shifts read at a pixel given by its coordinates. -/

private theorem dn_pos (z : α) (v : SI.Idx → α) (p q : Fin 256) (h : 1 ≤ p.val) :
    dn z v (ix2 p q) = v (ix2 (⟨p.val - 1, by omega⟩ : Fin 256) q) := by
  unfold dn
  exact dif_pos h
private theorem dn_neg (z : α) (v : SI.Idx → α) (p q : Fin 256) (h : ¬ 1 ≤ p.val) : dn z v (ix2 p q) = z := by
  unfold dn
  exact dif_neg h
private theorem up_pos (z : α) (v : SI.Idx → α) (p q : Fin 256) (h : p.val + 1 < 256) :
    up z v (ix2 p q) = v (ix2 (⟨p.val + 1, h⟩ : Fin 256) q) := by
  unfold up
  exact dif_pos h
private theorem up_neg (z : α) (v : SI.Idx → α) (p q : Fin 256) (h : ¬ p.val + 1 < 256) : up z v (ix2 p q) = z := by
  unfold up
  exact dif_neg h
private theorem rt_pos (z : α) (v : SI.Idx → α) (p q : Fin 256) (h : 1 ≤ q.val) :
    rt z v (ix2 p q) = v (ix2 p (⟨q.val - 1, by omega⟩ : Fin 256)) := by
  unfold rt
  exact dif_pos h
private theorem rt_neg (z : α) (v : SI.Idx → α) (p q : Fin 256) (h : ¬ 1 ≤ q.val) : rt z v (ix2 p q) = z := by
  unfold rt
  exact dif_neg h
private theorem lf_pos (z : α) (v : SI.Idx → α) (p q : Fin 256) (h : q.val + 1 < 256) :
    lf z v (ix2 p q) = v (ix2 p (⟨q.val + 1, h⟩ : Fin 256)) := by
  unfold lf
  exact dif_pos h
private theorem lf_neg (z : α) (v : SI.Idx → α) (p q : Fin 256) (h : ¬ q.val + 1 < 256) : lf z v (ix2 p q) = z := by
  unfold lf
  exact dif_neg h

theorem concat_dn (z : α) (v : SI.Idx → α) (h1 : SI.Slices ![0, 0] SRows) (h2 : Shape.Concatenates [SRow, SRows] SI 0) :
    concatenate SI 0 [⟨SRow, broadcast SRow z⟩, ⟨SRows, extractStridedSlice SRows ![0, 0] v h1⟩] h2 = dn z v := by
  funext j
  obtain ⟨p, q, rfl⟩ : ∃ (p : Fin 256) (q : Fin 256), j = ix2 p q := ⟨j 0, j 1, eq_ix2 j⟩
  by_cases h : 1 ≤ p.val
  · -- below the first row the joined array is the cut image one row up
    rw [dn_pos z v p q h]
    refine (concatenate_pair_apply_right (t := SI) (s₁ := SRow) (s₂ := SRows) (0 : Fin 2) _ _ h2 _ rfl rfl
      (ix2 (⟨p.val - 1, by omega⟩ : Fin 255) q) (by
        intro b hb
        match b with
        | ⟨0, _⟩ => exact absurd rfl hb
        | ⟨1, _⟩ => rfl) (by
        show p.val - 1 + 1 = p.val
        omega)).trans ?_
    exact slice2_axis0_apply 0 v h1 _ q _ (by show p.val - 1 = 0 + (p.val - 1); omega)
  · -- the first row is the row of the fill value
    rw [dn_neg z v p q h]
    exact concatenate_pair_apply_left (t := SI) (s₁ := SRow) (s₂ := SRows) (0 : Fin 2) _ _ h2 _ rfl
      (ix2 (0 : Fin 1) q) (by
        intro b
        match b with
        | ⟨0, _⟩ => show 0 = p.val; omega
        | ⟨1, _⟩ => rfl)

theorem concat_up (z : α) (v : SI.Idx → α) (h1 : SI.Slices ![1, 0] SRows) (h2 : Shape.Concatenates [SRows, SRow] SI 0) :
    concatenate SI 0 [⟨SRows, extractStridedSlice SRows ![1, 0] v h1⟩, ⟨SRow, broadcast SRow z⟩] h2 = up z v := by
  funext j
  obtain ⟨p, q, rfl⟩ : ∃ (p : Fin 256) (q : Fin 256), j = ix2 p q := ⟨j 0, j 1, eq_ix2 j⟩
  by_cases h : p.val + 1 < 256
  · -- above the last row the joined array is the cut image one row down
    rw [up_pos z v p q h]
    refine (concatenate_pair_apply_left (t := SI) (s₁ := SRows) (s₂ := SRow) (0 : Fin 2) _ _ h2 _ rfl
      (ix2 (⟨p.val, by omega⟩ : Fin 255) q) (by
        intro b
        match b with
        | ⟨0, _⟩ => rfl
        | ⟨1, _⟩ => rfl)).trans ?_
    exact slice2_axis0_apply 1 v h1 _ q _ (by show p.val + 1 = 1 + p.val; omega)
  · -- the last row is the row of the fill value
    rw [up_neg z v p q h]
    exact concatenate_pair_apply_right (t := SI) (s₁ := SRows) (s₂ := SRow) (0 : Fin 2) _ _ h2 _ rfl rfl
      (ix2 (0 : Fin 1) q) (by
        intro b hb
        match b with
        | ⟨0, _⟩ => exact absurd rfl hb
        | ⟨1, _⟩ => rfl) (by
        show 0 + 255 = p.val
        omega)

theorem concat_rt (z : α) (v : SI.Idx → α) (h1 : SI.Slices ![0, 0] SCols) (h2 : Shape.Concatenates [SCol, SCols] SI 1) :
    concatenate SI 1 [⟨SCol, broadcast SCol z⟩, ⟨SCols, extractStridedSlice SCols ![0, 0] v h1⟩] h2 = rt z v := by
  funext j
  obtain ⟨p, q, rfl⟩ : ∃ (p : Fin 256) (q : Fin 256), j = ix2 p q := ⟨j 0, j 1, eq_ix2 j⟩
  by_cases h : 1 ≤ q.val
  · -- right of the first column the joined array is the cut image one column to the left
    rw [rt_pos z v p q h]
    refine (concatenate_pair_apply_right (t := SI) (s₁ := SCol) (s₂ := SCols) (1 : Fin 2) _ _ h2 _ rfl rfl
      (ix2 p (⟨q.val - 1, by omega⟩ : Fin 255)) (by
        intro b hb
        match b with
        | ⟨0, _⟩ => rfl
        | ⟨1, _⟩ => exact absurd rfl hb) (by
        show q.val - 1 + 1 = q.val
        omega)).trans ?_
    exact slice2_axis1_apply 0 v h1 p _ _ (by show q.val - 1 = 0 + (q.val - 1); omega)
  · -- the first column is the column of the fill value
    rw [rt_neg z v p q h]
    exact concatenate_pair_apply_left (t := SI) (s₁ := SCol) (s₂ := SCols) (1 : Fin 2) _ _ h2 _ rfl
      (ix2 p (0 : Fin 1)) (by
        intro b
        match b with
        | ⟨0, _⟩ => rfl
        | ⟨1, _⟩ => show 0 = q.val; omega)

theorem concat_lf (z : α) (v : SI.Idx → α) (h1 : SI.Slices ![0, 1] SCols) (h2 : Shape.Concatenates [SCols, SCol] SI 1) :
    concatenate SI 1 [⟨SCols, extractStridedSlice SCols ![0, 1] v h1⟩, ⟨SCol, broadcast SCol z⟩] h2 = lf z v := by
  funext j
  obtain ⟨p, q, rfl⟩ : ∃ (p : Fin 256) (q : Fin 256), j = ix2 p q := ⟨j 0, j 1, eq_ix2 j⟩
  by_cases h : q.val + 1 < 256
  · -- left of the last column the joined array is the cut image one column to the right
    rw [lf_pos z v p q h]
    refine (concatenate_pair_apply_left (t := SI) (s₁ := SCols) (s₂ := SCol) (1 : Fin 2) _ _ h2 _ rfl
      (ix2 p (⟨q.val, by omega⟩ : Fin 255)) (by
        intro b
        match b with
        | ⟨0, _⟩ => rfl
        | ⟨1, _⟩ => rfl)).trans ?_
    exact slice2_axis1_apply 1 v h1 p _ _ (by show q.val + 1 = 1 + q.val; omega)
  · -- the last column is the column of the fill value
    rw [lf_neg z v p q h]
    exact concatenate_pair_apply_right (t := SI) (s₁ := SCols) (s₂ := SCol) (1 : Fin 2) _ _ h2 _ rfl rfl
      (ix2 p (0 : Fin 1)) (by
        intro b hb
        match b with
        | ⟨0, _⟩ => rfl
        | ⟨1, _⟩ => exact absurd rfl hb) (by
        show 0 + 255 = q.val
        omega)

/-! With fill value zero the shifts, alone or a row shift inside a column shift, are the eight neighbours. -/

variable (v : SI.Idx → EReal) (p q : Fin 256)

/-- The neighbour where the padded position lies inside the image. -/
private theorem nbr_pos (x : Fin 256 → Fin 256 → EReal) (ki kj : Nat) (p q : Fin 256)
    (h : (1 ≤ p.val + ki ∧ p.val + ki ≤ 256) ∧ (1 ≤ q.val + kj ∧ q.val + kj ≤ 256)) :
    nbr x ki kj p q = x ⟨p.val + ki - 1, by omega⟩ ⟨q.val + kj - 1, by omega⟩ := by
  unfold nbr
  exact dif_pos h
/-- The neighbour where the padded position lies in the ring of zeros. -/
private theorem nbr_neg (x : Fin 256 → Fin 256 → EReal) (ki kj : Nat) (p q : Fin 256)
    (h : ¬ ((1 ≤ p.val + ki ∧ p.val + ki ≤ 256) ∧ (1 ≤ q.val + kj ∧ q.val + kj ≤ 256))) :
    nbr x ki kj p q = 0 := by
  unfold nbr
  exact dif_neg h

theorem nbr00 : rt 0 (dn 0 v) (ix2 p q) = nbr (fun p q => v (ix2 p q)) 0 0 p q := by
  by_cases hq : 1 ≤ q.val
  · rw [rt_pos _ _ p q hq]
    by_cases hp : 1 ≤ p.val
    · rw [dn_pos _ _ p _ hp, nbr_pos _ 0 0 p q (by omega)]
      exact rd v rfl rfl
    · rw [dn_neg _ _ p _ hp, nbr_neg _ 0 0 p q (by omega)]
  · rw [rt_neg _ _ p q hq, nbr_neg _ 0 0 p q (by omega)]

theorem nbr01 : dn 0 v (ix2 p q) = nbr (fun p q => v (ix2 p q)) 0 1 p q := by
  by_cases hp : 1 ≤ p.val
  · rw [dn_pos _ _ p q hp, nbr_pos _ 0 1 p q (by omega)]
    exact rd v rfl rfl
  · rw [dn_neg _ _ p q hp, nbr_neg _ 0 1 p q (by omega)]

theorem nbr02 : lf 0 (dn 0 v) (ix2 p q) = nbr (fun p q => v (ix2 p q)) 0 2 p q := by
  by_cases hq : q.val + 1 < 256
  · rw [lf_pos _ _ p q hq]
    by_cases hp : 1 ≤ p.val
    · rw [dn_pos _ _ p _ hp, nbr_pos _ 0 2 p q (by omega)]
      exact rd v rfl rfl
    · rw [dn_neg _ _ p _ hp, nbr_neg _ 0 2 p q (by omega)]
  · rw [lf_neg _ _ p q hq, nbr_neg _ 0 2 p q (by omega)]

theorem nbr10 : rt 0 v (ix2 p q) = nbr (fun p q => v (ix2 p q)) 1 0 p q := by
  by_cases hq : 1 ≤ q.val
  · rw [rt_pos _ _ p q hq, nbr_pos _ 1 0 p q (by omega)]
    exact rd v rfl rfl
  · rw [rt_neg _ _ p q hq, nbr_neg _ 1 0 p q (by omega)]

theorem nbr12 : lf 0 v (ix2 p q) = nbr (fun p q => v (ix2 p q)) 1 2 p q := by
  by_cases hq : q.val + 1 < 256
  · rw [lf_pos _ _ p q hq, nbr_pos _ 1 2 p q (by omega)]
    exact rd v rfl rfl
  · rw [lf_neg _ _ p q hq, nbr_neg _ 1 2 p q (by omega)]

theorem nbr20 : rt 0 (up 0 v) (ix2 p q) = nbr (fun p q => v (ix2 p q)) 2 0 p q := by
  by_cases hq : 1 ≤ q.val
  · rw [rt_pos _ _ p q hq]
    by_cases hp : p.val + 1 < 256
    · rw [up_pos _ _ p _ hp, nbr_pos _ 2 0 p q (by omega)]
      exact rd v rfl rfl
    · rw [up_neg _ _ p _ hp, nbr_neg _ 2 0 p q (by omega)]
  · rw [rt_neg _ _ p q hq, nbr_neg _ 2 0 p q (by omega)]

theorem nbr21 : up 0 v (ix2 p q) = nbr (fun p q => v (ix2 p q)) 2 1 p q := by
  by_cases hp : p.val + 1 < 256
  · rw [up_pos _ _ p q hp, nbr_pos _ 2 1 p q (by omega)]
    exact rd v rfl rfl
  · rw [up_neg _ _ p q hp, nbr_neg _ 2 1 p q (by omega)]

theorem nbr22 : lf 0 (up 0 v) (ix2 p q) = nbr (fun p q => v (ix2 p q)) 2 2 p q := by
  by_cases hq : q.val + 1 < 256
  · rw [lf_pos _ _ p q hq]
    by_cases hp : p.val + 1 < 256
    · rw [up_pos _ _ p _ hp, nbr_pos _ 2 2 p q (by omega)]
      exact rd v rfl rfl
    · rw [up_neg _ _ p _ hp, nbr_neg _ 2 2 p q (by omega)]
  · rw [lf_neg _ _ p q hq, nbr_neg _ 2 2 p q (by omega)]

end Cert.Taps

end
-- ==== Proof.BodyTaps2.lean ====
/-
  What the kernel body leaves in the first output's buffer, pixel by pixel: slot `b`, tap `k` of the buffer is tap `k`
  of the neighbourhood product of image `b` of the first input block.

  The buffer is written by eighteen stores, one per (slot, tap), each through the unit rectangle at offset
  `(slot, tap, 0, 0)` of sizes `[1, 1, 256, 256]`. Every store's payload, read at a pixel, is the value one function `G`
  of the buffer index takes under the store's rectangle: `G (b, k, p, q)` is tap `k` of image `b` at `(p, q)`. Stores
  that all agree with one function leave that function wherever one of them reaches, and they tile the buffer.

  A payload is the loaded image with its leading unit axis dropped, shifted by one row and/or one column with zero
  entering at the border, multiplied by the image (neighbour first), and given two leading unit axes; the centre tap
  is the image itself. The shifts are the functions `dn`, `up`, `rt`, `lf`, and composed with fill value zero they are
  the neighbours `Taps.nbr`.
-/
import proofs.«149121_j76270029242959_1_alg».proof.Proof.Gen.KernelIdeal.Frame
import proofs.«149121_j76270029242959_1_alg».proof.Proof.ShiftOps
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Taps

/-! ## The loaded images, the unit axes, the fill value -/

/-- Image `b` of the input block, as a function of the pixel index. -/
private def img (x0 : Vec Ideal S2x256x256 .f32) (b : Fin 2) : FVec Ideal S256x256 .f32 :=
  fun j => x0 (ix3 b (j 0) (j 1))

/-- The zero word is the extended real zero. -/
private theorem fill_zero : (Scalar.ofBits .f32 0x00000000#32 : Ideal .f32) = (0 : EReal) := Ideal.ofBits_zero_f32

/-- The load of slot 0 with its unit axis dropped is image 0: pixel `(p, q)` of it is the block at `(0, p, q)`. -/
private theorem load0 (x0 : Vec Ideal S2x256x256 .f32) : k0_pay1 (F := Ideal) (View.ld x0 r0_0) = img x0 0 := by
  funext j
  unfold k0_pay1
  refine (shapeCast_dropUnit_apply _ _ _ j).trans ?_
  show x0 _ = x0 _
  congr 1
  funext a
  match a with
  | ⟨0, _⟩ => rfl
  | ⟨1, _⟩ => exact Fin.ext (by show 0 + 1 * (j 0).val = (j 0).val; omega)
  | ⟨2, _⟩ => exact Fin.ext (by show 0 + 1 * (j 1).val = (j 1).val; omega)

/-- The load of slot 1 with its unit axis dropped is image 1: pixel `(p, q)` of it is the block at `(1, p, q)`. -/
private theorem load1 (x0 : Vec Ideal S2x256x256 .f32) : k0_pay27 (F := Ideal) (View.ld x0 r0_10) = img x0 1 := by
  funext j
  unfold k0_pay27
  refine (shapeCast_dropUnit_apply _ _ _ j).trans ?_
  show x0 _ = x0 _
  congr 1
  funext a
  match a with
  | ⟨0, _⟩ => rfl
  | ⟨1, _⟩ => exact Fin.ext (by show 0 + 1 * (j 0).val = (j 0).val; omega)
  | ⟨2, _⟩ => exact Fin.ext (by show 0 + 1 * (j 1).val = (j 1).val; omega)

/-- An image given two leading unit axes reads, at `(0, 0, p, q)`, its pixel `(p, q)`: the two row-major positions are
    `256 p + q`. -/
private theorem cast4_apply (w : FVec Ideal S256x256 .f32) (a c : Fin 1) (p q : Fin 256) :
    shapeCast S1x1x256x256 w shapeCasts_S256x256_S1x1x256x256 (ix4 a c p q) = w (ix2 p q) := by
  refine shapeCast_apply _ _ _ (ix2 p q) ?_
  rw [Shape.rowMajor_val_two, Shape.rowMajor_val_four]
  show p.val * 256 + q.val = ((a.val * 1 + c.val) * 256 + p.val) * 256 + q.val
  have := a.isLt; have := c.isLt; omega

/-- A product given two leading unit axes reads, at `(0, 0, p, q)`, the product of the two pixels, first factor first. -/
private theorem prod_at (N v : FVec Ideal S256x256 .f32) (a c : Fin 1) (p q : Fin 256) :
    shapeCast S1x1x256x256 (mulf N v) shapeCasts_S256x256_S1x1x256x256 (ix4 a c p q) = N (ix2 p q) * v (ix2 p q) := by
  rw [cast4_apply, mulf_apply]

/-- The store rectangle of (slot `b0`, tap `k0`) places its pixel `(0, 0, p, q)` at buffer index `(b0, k0, p, q)`. -/
private theorem emb4 (b0 k0 : Nat) (hb : b0 < 2) (hk : k0 < 9)
    (inb : ∀ a, (![b0, k0, 0, 0] : Fin 4 → Nat) a + S1x1x256x256.size a ≤ S2x9x256x256.size a) (a c : Fin 1) (p q : Fin 256) :
    (Rect.unit (s := S2x9x256x256) ![b0, k0, 0, 0] S1x1x256x256.size inb).emb (ix4 a c p q)
      = ix4 (⟨b0, hb⟩ : Fin 2) (⟨k0, hk⟩ : Fin 9) p q := by
  funext e
  match e with
  | ⟨0, _⟩ => exact Fin.ext (by show b0 + 1 * a.val = b0; have := a.isLt; omega)
  | ⟨1, _⟩ => exact Fin.ext (by show k0 + 1 * c.val = k0; have := c.isLt; omega)
  | ⟨2, _⟩ => exact Fin.ext (by show 0 + 1 * p.val = p.val; omega)
  | ⟨3, _⟩ => exact Fin.ext (by show 0 + 1 * q.val = q.val; omega)

/-! ## Each store's payload at a pixel

For every (slot, tap) the payload is first brought to the form "two unit axes added to (shift of the image) times the
image" as an equation of whole vectors, then read at the pixel. -/

section Pieces
variable (x0 : Vec Ideal S2x256x256 .f32) (a c : Fin 1) (p q : Fin 256)

/-! ### Slot 0 -/

private theorem s0t0 : k0_pay3 (F := Ideal) (View.ld x0 r0_0) (ix4 a c p q) = tap (fun p q => x0 (ix3 0 p q)) 0 p q := by
  have e : k0_pay3 (F := Ideal) (View.ld x0 r0_0)
      = shapeCast S1x1x256x256 (mulf (rt 0 (dn 0 (img x0 0))) (img x0 0)) shapeCasts_S256x256_S1x1x256x256 := by
    simp only [k0_pay3, concat_dn, concat_rt, load0, fill_zero]
  rw [e, prod_at, nbr00]; rfl

private theorem s0t1 : k0_pay5 (F := Ideal) (View.ld x0 r0_0) (ix4 a c p q) = tap (fun p q => x0 (ix3 0 p q)) 1 p q := by
  have e : k0_pay5 (F := Ideal) (View.ld x0 r0_0)
      = shapeCast S1x1x256x256 (mulf (dn 0 (img x0 0)) (img x0 0)) shapeCasts_S256x256_S1x1x256x256 := by
    simp only [k0_pay5, concat_dn, load0, fill_zero]
  rw [e, prod_at, nbr01]; rfl

private theorem s0t2 : k0_pay8 (F := Ideal) (k0_pay1 (View.ld x0 r0_0)) (ix4 a c p q) = tap (fun p q => x0 (ix3 0 p q)) 2 p q := by
  have e : k0_pay8 (F := Ideal) (k0_pay1 (View.ld x0 r0_0))
      = shapeCast S1x1x256x256 (mulf (lf 0 (dn 0 (img x0 0))) (img x0 0)) shapeCasts_S256x256_S1x1x256x256 := by
    simp only [k0_pay8, concat_dn, concat_lf, load0, fill_zero]
  rw [e, prod_at, nbr02]; rfl

private theorem s0t3 : k0_pay10 (F := Ideal) (k0_pay1 (View.ld x0 r0_0)) (ix4 a c p q) = tap (fun p q => x0 (ix3 0 p q)) 3 p q := by
  have e : k0_pay10 (F := Ideal) (k0_pay1 (View.ld x0 r0_0))
      = shapeCast S1x1x256x256 (mulf (rt 0 (img x0 0)) (img x0 0)) shapeCasts_S256x256_S1x1x256x256 := by
    simp only [k0_pay10, concat_rt, load0, fill_zero]
  rw [e, prod_at, nbr10]; rfl

private theorem s0t4 : k0_pay13 (F := Ideal) (k0_pay1 (View.ld x0 r0_0)) (ix4 a c p q) = tap (fun p q => x0 (ix3 0 p q)) 4 p q := by
  have e : k0_pay13 (F := Ideal) (k0_pay1 (View.ld x0 r0_0))
      = shapeCast S1x1x256x256 (img x0 0) shapeCasts_S256x256_S1x1x256x256 := by
    simp only [k0_pay13, load0]
  rw [e, cast4_apply]; rfl

private theorem s0t5 : k0_pay15 (F := Ideal) (k0_pay1 (View.ld x0 r0_0)) (ix4 a c p q) = tap (fun p q => x0 (ix3 0 p q)) 5 p q := by
  have e : k0_pay15 (F := Ideal) (k0_pay1 (View.ld x0 r0_0))
      = shapeCast S1x1x256x256 (mulf (lf 0 (img x0 0)) (img x0 0)) shapeCasts_S256x256_S1x1x256x256 := by
    simp only [k0_pay15, concat_lf, load0, fill_zero]
  rw [e, prod_at, nbr12]; rfl

private theorem s0t6 :
    k0_pay19 (F := Ideal) (k0_pay1 (View.ld x0 r0_0)) (k0_pay17 (F := Ideal)) (k0_pay18 (k0_pay1 (View.ld x0 r0_0))) (ix4 a c p q)
      = tap (fun p q => x0 (ix3 0 p q)) 6 p q := by
  have e : k0_pay19 (F := Ideal) (k0_pay1 (View.ld x0 r0_0)) (k0_pay17 (F := Ideal)) (k0_pay18 (k0_pay1 (View.ld x0 r0_0)))
      = shapeCast S1x1x256x256 (mulf (rt 0 (up 0 (img x0 0))) (img x0 0)) shapeCasts_S256x256_S1x1x256x256 := by
    simp only [k0_pay19, k0_pay17, k0_pay18, concat_up, concat_rt, load0, fill_zero]
  rw [e, prod_at, nbr20]; rfl

private theorem s0t7 : k0_pay21 (F := Ideal) (k0_pay1 (View.ld x0 r0_0)) (ix4 a c p q) = tap (fun p q => x0 (ix3 0 p q)) 7 p q := by
  have e : k0_pay21 (F := Ideal) (k0_pay1 (View.ld x0 r0_0))
      = shapeCast S1x1x256x256 (mulf (up 0 (img x0 0)) (img x0 0)) shapeCasts_S256x256_S1x1x256x256 := by
    simp only [k0_pay21, concat_up, load0, fill_zero]
  rw [e, prod_at, nbr21]; rfl

private theorem s0t8 :
    k0_pay25 (F := Ideal) (k0_pay1 (View.ld x0 r0_0)) (k0_pay23 (k0_pay1 (View.ld x0 r0_0))) (k0_pay24 (F := Ideal)) (ix4 a c p q)
      = tap (fun p q => x0 (ix3 0 p q)) 8 p q := by
  have e : k0_pay25 (F := Ideal) (k0_pay1 (View.ld x0 r0_0)) (k0_pay23 (k0_pay1 (View.ld x0 r0_0))) (k0_pay24 (F := Ideal))
      = shapeCast S1x1x256x256 (mulf (lf 0 (up 0 (img x0 0))) (img x0 0)) shapeCasts_S256x256_S1x1x256x256 := by
    simp only [k0_pay25, k0_pay23, k0_pay24, concat_up, concat_lf, load0, fill_zero]
  rw [e, prod_at, nbr22]; rfl

/-! ### Slot 1 -/

private theorem s1t0 : k0_pay29 (F := Ideal) (View.ld x0 r0_10) (ix4 a c p q) = tap (fun p q => x0 (ix3 1 p q)) 0 p q := by
  have e : k0_pay29 (F := Ideal) (View.ld x0 r0_10)
      = shapeCast S1x1x256x256 (mulf (rt 0 (dn 0 (img x0 1))) (img x0 1)) shapeCasts_S256x256_S1x1x256x256 := by
    simp only [k0_pay29, concat_dn, concat_rt, load1, fill_zero]
  rw [e, prod_at, nbr00]; rfl

private theorem s1t1 : k0_pay33 (F := Ideal) (k0_pay27 (View.ld x0 r0_10)) (ix4 a c p q) = tap (fun p q => x0 (ix3 1 p q)) 1 p q := by
  have e : k0_pay33 (F := Ideal) (k0_pay27 (View.ld x0 r0_10))
      = shapeCast S1x1x256x256 (mulf (dn 0 (img x0 1)) (img x0 1)) shapeCasts_S256x256_S1x1x256x256 := by
    simp only [k0_pay33, concat_dn, load1, fill_zero]
  rw [e, prod_at, nbr01]; rfl

private theorem s1t2 : k0_pay35 (F := Ideal) (k0_pay27 (View.ld x0 r0_10)) (ix4 a c p q) = tap (fun p q => x0 (ix3 1 p q)) 2 p q := by
  have e : k0_pay35 (F := Ideal) (k0_pay27 (View.ld x0 r0_10))
      = shapeCast S1x1x256x256 (mulf (lf 0 (dn 0 (img x0 1))) (img x0 1)) shapeCasts_S256x256_S1x1x256x256 := by
    simp only [k0_pay35, concat_dn, concat_lf, load1, fill_zero]
  rw [e, prod_at, nbr02]; rfl

private theorem s1t3 : k0_pay38 (F := Ideal) (k0_pay27 (View.ld x0 r0_10)) (ix4 a c p q) = tap (fun p q => x0 (ix3 1 p q)) 3 p q := by
  have e : k0_pay38 (F := Ideal) (k0_pay27 (View.ld x0 r0_10))
      = shapeCast S1x1x256x256 (mulf (rt 0 (img x0 1)) (img x0 1)) shapeCasts_S256x256_S1x1x256x256 := by
    simp only [k0_pay38, concat_rt, load1, fill_zero]
  rw [e, prod_at, nbr10]; rfl

private theorem s1t4 : k0_pay40 (F := Ideal) (k0_pay27 (View.ld x0 r0_10)) (ix4 a c p q) = tap (fun p q => x0 (ix3 1 p q)) 4 p q := by
  have e : k0_pay40 (F := Ideal) (k0_pay27 (View.ld x0 r0_10))
      = shapeCast S1x1x256x256 (img x0 1) shapeCasts_S256x256_S1x1x256x256 := by
    simp only [k0_pay40, load1]
  rw [e, cast4_apply]; rfl

private theorem s1t5 : k0_pay43 (F := Ideal) (k0_pay42 (k0_pay27 (View.ld x0 r0_10))) (ix4 a c p q) = tap (fun p q => x0 (ix3 1 p q)) 5 p q := by
  have e : k0_pay43 (F := Ideal) (k0_pay42 (k0_pay27 (View.ld x0 r0_10)))
      = shapeCast S1x1x256x256 (mulf (lf 0 (img x0 1)) (img x0 1)) shapeCasts_S256x256_S1x1x256x256 := by
    simp only [k0_pay43, k0_pay42, concat_lf, load1, fill_zero]
  rw [e, prod_at, nbr12]; rfl

private theorem s1t6 : k0_pay45 (F := Ideal) (k0_pay27 (View.ld x0 r0_10)) (ix4 a c p q) = tap (fun p q => x0 (ix3 1 p q)) 6 p q := by
  have e : k0_pay45 (F := Ideal) (k0_pay27 (View.ld x0 r0_10))
      = shapeCast S1x1x256x256 (mulf (rt 0 (up 0 (img x0 1))) (img x0 1)) shapeCasts_S256x256_S1x1x256x256 := by
    simp only [k0_pay45, concat_up, concat_rt, load1, fill_zero]
  rw [e, prod_at, nbr20]; rfl

private theorem s1t7 : k0_pay48 (F := Ideal) (k0_pay47 (k0_pay27 (View.ld x0 r0_10))) (ix4 a c p q) = tap (fun p q => x0 (ix3 1 p q)) 7 p q := by
  have e : k0_pay48 (F := Ideal) (k0_pay47 (k0_pay27 (View.ld x0 r0_10)))
      = shapeCast S1x1x256x256 (mulf (up 0 (img x0 1)) (img x0 1)) shapeCasts_S256x256_S1x1x256x256 := by
    simp only [k0_pay48, k0_pay47, concat_up, load1, fill_zero]
  rw [e, prod_at, nbr21]; rfl

private theorem s1t8 : k0_pay50 (F := Ideal) (k0_pay27 (View.ld x0 r0_10)) (ix4 a c p q) = tap (fun p q => x0 (ix3 1 p q)) 8 p q := by
  have e : k0_pay50 (F := Ideal) (k0_pay27 (View.ld x0 r0_10))
      = shapeCast S1x1x256x256 (mulf (lf 0 (up 0 (img x0 1))) (img x0 1)) shapeCasts_S256x256_S1x1x256x256 := by
    simp only [k0_pay50, concat_up, concat_lf, load1, fill_zero]
  rw [e, prod_at, nbr22]; rfl

end Pieces

/-! ## The buffer -/

/-- The function every store agrees with: at buffer index `(b, k, p, q)`, tap `k` of image `b` at pixel `(p, q)`. -/
private def G (x0 : Vec Ideal S2x256x256 .f32) : Vec Ideal S2x9x256x256 .f32 := fun y =>
  tap (fun p q => x0 (ix3 (y 0 : Fin 2) p q)) (y 1 : Fin 9) (y 2 : Fin 256) (y 3 : Fin 256)

theorem out2_apply (x0 x1 : Vec Ideal S2x256x256 .f32) (b : Fin 2) (k : Fin 9) (p q : Fin 256) :
    out0_2 (F := Ideal) x0 x1 (ix4 b k p q) = Cert.Taps.tap (fun p q => x0 (ix3 b p q)) k p q := by
  unfold out0_2
  refine View.canon_apply_of_pieces (Val := Elt Ideal) (G x0) _ ?_ (ix4 b k p q) (cover0_2 _ _ _ _ _ _ _ _ _ _ _ _ _ _ _ _ _ _ _)
  intro pc hpc
  simp only [List.mem_cons, List.mem_nil_iff, or_false] at hpc
  rcases hpc with rfl | rfl | rfl | rfl | rfl | rfl | rfl | rfl | rfl | rfl | rfl | rfl | rfl | rfl | rfl | rfl | rfl | rfl
  all_goals
    intro x
    obtain ⟨a, c, p', q', rfl⟩ : ∃ a c p' q', x = ix4 a c p' q' := ⟨x 0, x 1, x 2, x 3, eq_ix4 x⟩
  · exact (s1t8 x0 a c p' q').trans (congrArg (G x0) (emb4 1 8 (by decide) (by decide) inb_S2x9x256x256_S1x1x256x256_1_8_0_0 a c p' q')).symm
  · exact (s1t7 x0 a c p' q').trans (congrArg (G x0) (emb4 1 7 (by decide) (by decide) inb_S2x9x256x256_S1x1x256x256_1_7_0_0 a c p' q')).symm
  · exact (s1t6 x0 a c p' q').trans (congrArg (G x0) (emb4 1 6 (by decide) (by decide) inb_S2x9x256x256_S1x1x256x256_1_6_0_0 a c p' q')).symm
  · exact (s1t5 x0 a c p' q').trans (congrArg (G x0) (emb4 1 5 (by decide) (by decide) inb_S2x9x256x256_S1x1x256x256_1_5_0_0 a c p' q')).symm
  · exact (s1t4 x0 a c p' q').trans (congrArg (G x0) (emb4 1 4 (by decide) (by decide) inb_S2x9x256x256_S1x1x256x256_1_4_0_0 a c p' q')).symm
  · exact (s1t3 x0 a c p' q').trans (congrArg (G x0) (emb4 1 3 (by decide) (by decide) inb_S2x9x256x256_S1x1x256x256_1_3_0_0 a c p' q')).symm
  · exact (s1t2 x0 a c p' q').trans (congrArg (G x0) (emb4 1 2 (by decide) (by decide) inb_S2x9x256x256_S1x1x256x256_1_2_0_0 a c p' q')).symm
  · exact (s1t1 x0 a c p' q').trans (congrArg (G x0) (emb4 1 1 (by decide) (by decide) inb_S2x9x256x256_S1x1x256x256_1_1_0_0 a c p' q')).symm
  · exact (s1t0 x0 a c p' q').trans (congrArg (G x0) (emb4 1 0 (by decide) (by decide) inb_S2x9x256x256_S1x1x256x256_1_0_0_0 a c p' q')).symm
  · exact (s0t8 x0 a c p' q').trans (congrArg (G x0) (emb4 0 8 (by decide) (by decide) inb_S2x9x256x256_S1x1x256x256_0_8_0_0 a c p' q')).symm
  · exact (s0t7 x0 a c p' q').trans (congrArg (G x0) (emb4 0 7 (by decide) (by decide) inb_S2x9x256x256_S1x1x256x256_0_7_0_0 a c p' q')).symm
  · exact (s0t6 x0 a c p' q').trans (congrArg (G x0) (emb4 0 6 (by decide) (by decide) inb_S2x9x256x256_S1x1x256x256_0_6_0_0 a c p' q')).symm
  · exact (s0t5 x0 a c p' q').trans (congrArg (G x0) (emb4 0 5 (by decide) (by decide) inb_S2x9x256x256_S1x1x256x256_0_5_0_0 a c p' q')).symm
  · exact (s0t4 x0 a c p' q').trans (congrArg (G x0) (emb4 0 4 (by decide) (by decide) inb_S2x9x256x256_S1x1x256x256_0_4_0_0 a c p' q')).symm
  · exact (s0t3 x0 a c p' q').trans (congrArg (G x0) (emb4 0 3 (by decide) (by decide) inb_S2x9x256x256_S1x1x256x256_0_3_0_0 a c p' q')).symm
  · exact (s0t2 x0 a c p' q').trans (congrArg (G x0) (emb4 0 2 (by decide) (by decide) inb_S2x9x256x256_S1x1x256x256_0_2_0_0 a c p' q')).symm
  · exact (s0t1 x0 a c p' q').trans (congrArg (G x0) (emb4 0 1 (by decide) (by decide) inb_S2x9x256x256_S1x1x256x256_0_1_0_0 a c p' q')).symm
  · exact (s0t0 x0 a c p' q').trans (congrArg (G x0) (emb4 0 0 (by decide) (by decide) inb_S2x9x256x256_S1x1x256x256_0_0_0_0 a c p' q')).symm

end Cert.KernelIdeal.Body

end
-- ==== Proof.BodyTaps3.lean ====
/-
  What the kernel body leaves in the second output's buffer, pixel by pixel: slot `b`, tap `k` of the buffer is tap `k`
  of the neighbourhood product of image `b` of the second input block.

  The buffer is the closed form of eighteen stores, one per (slot, tap), each through the unit rectangle at offsets
  (slot, tap, 0, 0). Each stored value is an image-sized array with two unit axes added: the loaded slot with its unit axis
  dropped (the image), shifted by one row and/or one column with zero entering at the border, times the image; the centre
  tap stores the image itself. So every store agrees, under its rectangle, with ONE function `G` of the buffer's index,
  the tap of the image; the stores cover the buffer, hence the buffer is `G`.
-/
import proofs.«149121_j76270029242959_1_alg».proof.Proof.Gen.KernelIdeal.Frame
import proofs.«149121_j76270029242959_1_alg».proof.Proof.ShiftOps
import Idealize.ShloMosaic.PureOps.Ideal.Laws

noncomputable section

namespace Cert.KernelIdeal.Body

open Cert.KernelIdeal Cert.KernelIdeal.Gen Idealize.ShloMosaic Idealize.ShloMosaic.ValueIdx

/-- Image `s` of a block of two images, as one array of rank two. -/
private def img (x : Vec Ideal S2x256x256 .f32) (s : Fin 2) : FVec Ideal S256x256 .f32 :=
  fun j => x (ix3 s (j 0 : Fin 256) (j 1 : Fin 256))

/-- Slot 0 of the block, read through its rectangle and with the unit axis dropped, is image 0. -/
private theorem slot0 (x : Vec Ideal S2x256x256 .f32) : k0_pay2 (View.ld x r0_0) = img x 0 := by
  funext j
  obtain ⟨p, q, rfl⟩ : ∃ p q, j = ix2 p q := ⟨j 0, j 1, eq_ix2 j⟩
  unfold k0_pay2
  refine (shapeCast_apply _ _ (ix2 p q) (ix3 (0 : Fin 1) p q) ?_).trans ?_
  · rw [Shape.rowMajor_val_three, Shape.rowMajor_val_two]
    show ((0 : Fin 1).val * 256 + p.val) * 256 + q.val = p.val * 256 + q.val
    simp
  · show x (r0_0.idx (ix3 (0 : Fin 1) p q)) = x (ix3 (0 : Fin 2) p q)
    refine congrArg x (funext fun a => Fin.ext ?_)
    match a with
    | ⟨0, _⟩ => rfl
    | ⟨1, _⟩ => show 0 + 1 * p.val = p.val; omega
    | ⟨2, _⟩ => show 0 + 1 * q.val = q.val; omega

/-- Slot 1 likewise is image 1. -/
private theorem slot1 (x : Vec Ideal S2x256x256 .f32) : k0_pay28 (View.ld x r0_10) = img x 1 := by
  funext j
  obtain ⟨p, q, rfl⟩ : ∃ p q, j = ix2 p q := ⟨j 0, j 1, eq_ix2 j⟩
  unfold k0_pay28
  refine (shapeCast_apply _ _ (ix2 p q) (ix3 (0 : Fin 1) p q) ?_).trans ?_
  · rw [Shape.rowMajor_val_three, Shape.rowMajor_val_two]
    show ((0 : Fin 1).val * 256 + p.val) * 256 + q.val = p.val * 256 + q.val
    simp
  · show x (r0_10.idx (ix3 (0 : Fin 1) p q)) = x (ix3 (1 : Fin 2) p q)
    refine congrArg x (funext fun a => Fin.ext ?_)
    match a with
    | ⟨0, _⟩ => rfl
    | ⟨1, _⟩ => show 0 + 1 * p.val = p.val; omega
    | ⟨2, _⟩ => show 0 + 1 * q.val = q.val; omega

/-- The fill value of every shift is the extended real zero. -/
private theorem fill0 : (FloatOps.ofBits FTy.f32 0x00000000#32 : Ideal .f32) = (0 : EReal) := Ideal.ofBits_zero_f32

section Taps
variable (v : FVec Ideal S256x256 .f32) (z : Ideal .f32) (p q : Fin 256)

/-! The nine products, pixel by pixel: a shifted image (fill value zero) times the image is the tap. -/

private theorem tap0 (hz : z = (0 : EReal)) :
    mulf (Taps.rt z (Taps.dn z v)) v (ix2 p q) = Taps.tap (fun p q => v (ix2 p q)) 0 p q := by
  rw [mulf_apply, hz, Taps.nbr00]; rfl
private theorem tap1 (hz : z = (0 : EReal)) :
    mulf (Taps.dn z v) v (ix2 p q) = Taps.tap (fun p q => v (ix2 p q)) 1 p q := by
  rw [mulf_apply, hz, Taps.nbr01]; rfl
private theorem tap2 (hz : z = (0 : EReal)) :
    mulf (Taps.lf z (Taps.dn z v)) v (ix2 p q) = Taps.tap (fun p q => v (ix2 p q)) 2 p q := by
  rw [mulf_apply, hz, Taps.nbr02]; rfl
private theorem tap3 (hz : z = (0 : EReal)) :
    mulf (Taps.rt z v) v (ix2 p q) = Taps.tap (fun p q => v (ix2 p q)) 3 p q := by
  rw [mulf_apply, hz, Taps.nbr10]; rfl
private theorem tap4 : v (ix2 p q) = Taps.tap (fun p q => v (ix2 p q)) 4 p q := rfl
private theorem tap5 (hz : z = (0 : EReal)) :
    mulf (Taps.lf z v) v (ix2 p q) = Taps.tap (fun p q => v (ix2 p q)) 5 p q := by
  rw [mulf_apply, hz, Taps.nbr12]; rfl
private theorem tap6 (hz : z = (0 : EReal)) :
    mulf (Taps.rt z (Taps.up z v)) v (ix2 p q) = Taps.tap (fun p q => v (ix2 p q)) 6 p q := by
  rw [mulf_apply, hz, Taps.nbr20]; rfl
private theorem tap7 (hz : z = (0 : EReal)) :
    mulf (Taps.up z v) v (ix2 p q) = Taps.tap (fun p q => v (ix2 p q)) 7 p q := by
  rw [mulf_apply, hz, Taps.nbr21]; rfl
private theorem tap8 (hz : z = (0 : EReal)) :
    mulf (Taps.lf z (Taps.up z v)) v (ix2 p q) = Taps.tap (fun p q => v (ix2 p q)) 8 p q := by
  rw [mulf_apply, hz, Taps.nbr22]; rfl

end Taps

/-- The whole buffer as one function of its index (slot, tap, row, column). -/
private def G (x : Vec Ideal S2x256x256 .f32) : Vec Ideal S2x9x256x256 .f32 := fun y =>
  Taps.tap (fun p q => x (ix3 (y 0 : Fin 2) p q)) (y 1 : Fin 9) (y 2 : Fin 256) (y 3 : Fin 256)

/-- One store: an image-sized array `w` that is tap `k` of image `s` pixel by pixel, stored with two unit axes
    added through the rectangle at offsets `(s, k, 0, 0)`, agrees with `G` under that rectangle. -/
private theorem piece (x : Vec Ideal S2x256x256 .f32) (s : Fin 2) (k : Fin 9) (off : Fin 4 → Nat)
    (inb : ∀ a, off a + S1x1x256x256.size a ≤ S2x9x256x256.size a)
    (h0 : off 0 = s.val) (h1 : off 1 = k.val) (h2 : off 2 = 0) (h3 : off 3 = 0)
    (w : FVec Ideal S256x256 .f32) (h : S256x256.ShapeCasts S1x1x256x256)
    (hw : ∀ p q, w (ix2 p q) = Taps.tap (fun p q => img x s (ix2 p q)) k p q)
    (y : S1x1x256x256.Idx) :
    shapeCast S1x1x256x256 w h y = G x ((Rect.unit (s := S2x9x256x256) off S1x1x256x256.size inb).emb y) := by
  obtain ⟨a0, a1, p, q, rfl⟩ : ∃ a0 a1 p q, y = ix4 a0 a1 p q := ⟨y 0, y 1, y 2, y 3, eq_ix4 y⟩
  refine (shapeCast_apply _ _ (ix4 a0 a1 p q) (ix2 p q) ?_).trans ?_
  · rw [Shape.rowMajor_val_two, Shape.rowMajor_val_four]
    show p.val * 256 + q.val = ((a0.val * 1 + a1.val) * 256 + p.val) * 256 + q.val
    have := a0.isLt; have := a1.isLt; omega
  · rw [hw]
    have e : (Rect.unit (s := S2x9x256x256) off S1x1x256x256.size inb).emb (ix4 a0 a1 p q) = ix4 s k p q := by
      funext a; apply Fin.ext
      match a with
      | ⟨0, _⟩ => show off 0 + 1 * a0.val = s.val; have := a0.isLt; omega
      | ⟨1, _⟩ => show off 1 + 1 * a1.val = k.val; have := a1.isLt; omega
      | ⟨2, _⟩ => show off 2 + 1 * p.val = p.val; omega
      | ⟨3, _⟩ => show off 3 + 1 * q.val = q.val; omega
    rw [e]; rfl

section Pieces
variable (x : Vec Ideal S2x256x256 .f32) (y : S1x1x256x256.Idx)

/-! The eighteen stores, each against `G` under its rectangle: the payload's shifts are read as functions of the
    pixel, the loaded slot as its image, and the product is the tap of the rectangle's offsets. -/

private theorem pc18 : k0_pay51 (k0_pay28 (View.ld x r0_10)) y = G x (r0_19.emb y) := by
  simp only [k0_pay51, slot1, Taps.concat_up, Taps.concat_lf]
  exact piece x 1 8 _ _ rfl rfl rfl rfl _ _ (fun p q => tap8 _ _ p q fill0) y
private theorem pc17 : k0_pay49 (k0_pay28 (View.ld x r0_10)) y = G x (r0_18.emb y) := by
  simp only [k0_pay49, slot1, Taps.concat_up]
  exact piece x 1 7 _ _ rfl rfl rfl rfl _ _ (fun p q => tap7 _ _ p q fill0) y
private theorem pc16 : k0_pay46 (k0_pay28 (View.ld x r0_10)) y = G x (r0_17.emb y) := by
  simp only [k0_pay46, slot1, Taps.concat_up, Taps.concat_rt]
  exact piece x 1 6 _ _ rfl rfl rfl rfl _ _ (fun p q => tap6 _ _ p q fill0) y
private theorem pc15 : k0_pay44 (k0_pay28 (View.ld x r0_10)) y = G x (r0_16.emb y) := by
  simp only [k0_pay44, slot1, Taps.concat_lf]
  exact piece x 1 5 _ _ rfl rfl rfl rfl _ _ (fun p q => tap5 _ _ p q fill0) y
private theorem pc14 : k0_pay41 (k0_pay28 (View.ld x r0_10)) y = G x (r0_15.emb y) := by
  simp only [k0_pay41, slot1]
  exact piece x 1 4 _ _ rfl rfl rfl rfl _ _ (fun p q => tap4 _ p q) y
private theorem pc13 : k0_pay39 (k0_pay28 (View.ld x r0_10)) y = G x (r0_14.emb y) := by
  simp only [k0_pay39, slot1, Taps.concat_rt]
  exact piece x 1 3 _ _ rfl rfl rfl rfl _ _ (fun p q => tap3 _ _ p q fill0) y
private theorem pc12 : k0_pay37 (k0_pay28 (View.ld x r0_10)) (k0_pay36 (k0_pay28 (View.ld x r0_10)))
    (Scalar.ofBits .f32 0x00000000#32) y = G x (r0_13.emb y) := by
  simp only [k0_pay37, k0_pay36, slot1, Taps.concat_dn, Taps.concat_lf]
  exact piece x 1 2 _ _ rfl rfl rfl rfl _ _ (fun p q => tap2 _ _ p q fill0) y
private theorem pc11 : k0_pay34 (k0_pay28 (View.ld x r0_10)) y = G x (r0_12.emb y) := by
  simp only [k0_pay34, slot1, Taps.concat_dn]
  exact piece x 1 1 _ _ rfl rfl rfl rfl _ _ (fun p q => tap1 _ _ p q fill0) y
private theorem pc10 : k0_pay32 (k0_pay28 (View.ld x r0_10)) (k0_pay30 (View.ld x r0_10)) (k0_pay31 (F := Ideal)) y
    = G x (r0_11.emb y) := by
  simp only [k0_pay32, k0_pay30, k0_pay31, slot1, Taps.concat_dn, Taps.concat_rt]
  exact piece x 1 0 _ _ rfl rfl rfl rfl _ _ (fun p q => tap0 _ _ p q fill0) y
private theorem pc08 : k0_pay26 (k0_pay2 (View.ld x r0_0)) y = G x (r0_9.emb y) := by
  simp only [k0_pay26, slot0, Taps.concat_up, Taps.concat_lf]
  exact piece x 0 8 _ _ rfl rfl rfl rfl _ _ (fun p q => tap8 _ _ p q fill0) y
private theorem pc07 : k0_pay22 (k0_pay2 (View.ld x r0_0)) y = G x (r0_8.emb y) := by
  simp only [k0_pay22, slot0, Taps.concat_up]
  exact piece x 0 7 _ _ rfl rfl rfl rfl _ _ (fun p q => tap7 _ _ p q fill0) y
private theorem pc06 : k0_pay20 (k0_pay2 (View.ld x r0_0)) y = G x (r0_7.emb y) := by
  simp only [k0_pay20, slot0, Taps.concat_up, Taps.concat_rt]
  exact piece x 0 6 _ _ rfl rfl rfl rfl _ _ (fun p q => tap6 _ _ p q fill0) y
private theorem pc05 : k0_pay16 (k0_pay2 (View.ld x r0_0)) y = G x (r0_6.emb y) := by
  simp only [k0_pay16, slot0, Taps.concat_lf]
  exact piece x 0 5 _ _ rfl rfl rfl rfl _ _ (fun p q => tap5 _ _ p q fill0) y
private theorem pc04 : k0_pay14 (k0_pay2 (View.ld x r0_0)) y = G x (r0_5.emb y) := by
  simp only [k0_pay14, slot0]
  exact piece x 0 4 _ _ rfl rfl rfl rfl _ _ (fun p q => tap4 _ p q) y
private theorem pc03 : k0_pay12 (k0_pay2 (View.ld x r0_0)) (k0_pay11 (F := Ideal)) y = G x (r0_4.emb y) := by
  simp only [k0_pay12, k0_pay11, slot0, Taps.concat_rt]
  exact piece x 0 3 _ _ rfl rfl rfl rfl _ _ (fun p q => tap3 _ _ p q fill0) y
private theorem pc02 : k0_pay9 (k0_pay2 (View.ld x r0_0)) y = G x (r0_3.emb y) := by
  simp only [k0_pay9, slot0, Taps.concat_dn, Taps.concat_lf]
  exact piece x 0 2 _ _ rfl rfl rfl rfl _ _ (fun p q => tap2 _ _ p q fill0) y
private theorem pc01 : k0_pay7 (k0_pay2 (View.ld x r0_0)) (k0_pay6 (F := Ideal)) y = G x (r0_2.emb y) := by
  simp only [k0_pay7, k0_pay6, slot0, Taps.concat_dn]
  exact piece x 0 1 _ _ rfl rfl rfl rfl _ _ (fun p q => tap1 _ _ p q fill0) y
private theorem pc00 : k0_pay4 (View.ld x r0_0) y = G x (r0_1.emb y) := by
  simp only [k0_pay4, slot0, Taps.concat_dn, Taps.concat_rt]
  exact piece x 0 0 _ _ rfl rfl rfl rfl _ _ (fun p q => tap0 _ _ p q fill0) y

end Pieces

theorem out3_apply (x0 x1 : Vec Ideal S2x256x256 .f32) (b : Fin 2) (k : Fin 9) (p q : Fin 256) :
    out0_3 (F := Ideal) x0 x1 (ix4 b k p q) = Cert.Taps.tap (fun p q => x1 (ix3 b p q)) k p q := by
  unfold out0_3
  -- every store agrees with `G` under its rectangle, and the stores cover the buffer: the buffer is `G`
  refine (View.canon_apply_of_pieces (G x1) _ ?_ (ix4 b k p q)
    (cover0_3 _ _ _ _ _ _ _ _ _ _ _ _ _ _ _ _ _ _ (ix4 b k p q))).trans rfl
  intro pc hpc
  simp only [List.mem_cons, List.not_mem_nil, or_false] at hpc
  rcases hpc with rfl | rfl | rfl | rfl | rfl | rfl | rfl | rfl | rfl | rfl | rfl | rfl | rfl | rfl | rfl | rfl | rfl | rfl
  · exact pc18 x1
  · exact pc17 x1
  · exact pc16 x1
  · exact pc15 x1
  · exact pc14 x1
  · exact pc13 x1
  · exact pc12 x1
  · exact pc11 x1
  · exact pc10 x1
  · exact pc08 x1
  · exact pc07 x1
  · exact pc06 x1
  · exact pc05 x1
  · exact pc04 x1
  · exact pc03 x1
  · exact pc02 x1
  · exact pc01 x1
  · exact pc00 x1

end Cert.KernelIdeal.Body

end
-- ==== Proof.KernelTaps.lean ====
/-
  The kernel's two results as the nine taps of the neighbourhood product of its two arguments.

  The host lays the 4 × 16 images out in one row of 64; grid point `t` of 32 takes images `2t` and `2t + 1` of each
  argument and writes their nine taps each into rows `2t`, `2t + 1` of the two [64, 9, 256, 256] outputs; the 32 blocks
  tile the outputs; the host then splits the row of 64 back into 4 × 16.
-/
import proofs.«149121_j76270029242959_1_alg».proof.Proof.Gen.KernelIdeal.Frame
import proofs.«149121_j76270029242959_1_alg».proof.Proof.BodyTaps2
import proofs.«149121_j76270029242959_1_alg».proof.Proof.BodyTaps3
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Taps

variable (m : (ℓ : Loc nD τ sig) → Buf (Elt Ideal) ℓ) (ρ : Dev nD → PrngReg)

/-- The region finds the first argument laid out as 64 images in a row. -/
theorem V_v0 (c : Dev nD) : (V m c main_v0 : S64x256x256.Idx → EReal)
    = shapeCast S64x256x256 (m ((c : Thread nD τ).loc main_arg0)) shapeCasts_S4x16x256x256_S64x256x256 := by
  dsimp only [V, V0]
  simp only [hostOps0, List.flatten_cons, List.flatten_nil, List.append_nil, List.cons_append, List.nil_append]
  after_results
  rfl

/-- And the second. -/
theorem V_v1 (c : Dev nD) : (V m c main_v1 : S64x256x256.Idx → EReal)
    = shapeCast S64x256x256 (m ((c : Thread nD τ).loc main_arg1)) shapeCasts_S4x16x256x256_S64x256x256 := by
  dsimp only [V, V0]
  simp only [hostOps0, List.flatten_cons, List.flatten_nil, List.append_nil, List.cons_append, List.nil_append]
  after_results
  rfl

/-- The grid has 32 points. -/
theorem N32 : cfg0.N = 32 := N_0
theorem lt64 (n b : Nat) (hn : n < 32) (hb : b < 2) : 2 * n + b < 64 := by omega
theorem t_lt (t : Fin cfg0.N) : t.val < 32 := by have := t.isLt; have h := N32; omega

/-- The printed index maps, decided over the grid: every window's block index is the grid point on the image axis and
    0 on the others. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 4) = t.val ∧ win0_2.index t (1 : Fin 4) = 0 ∧ win0_2.index t (2 : Fin 4) = 0 ∧ win0_2.index t (3 : Fin 4) = 0)
    ∧ (win0_3.index t (0 : Fin 4) = t.val ∧ win0_3.index t (1 : Fin 4) = 0 ∧ win0_3.index t (2 : Fin 4) = 0 ∧ win0_3.index t (3 : Fin 4) = 0) :=
  (by decide +kernel : ∀ t : Fin grid0.N, _)

/-- Image `b` of the first input's block at point `t` is image `2t + b` of the row of 64. -/
theorem iblk0_apply (c : Dev nD) (t : Fin cfg0.N) (b : Fin 2) (p q : Fin 256) :
    (iblk m c 0 t : Vec Ideal S2x256x256 .f32) (ix3 b p q)
      = (V m c main_v0 : S64x256x256.Idx → EReal) (ix3 (⟨2 * t.val + b.val, by have := t_lt t; omega⟩ : Fin 64) p q) := by
  obtain ⟨⟨e0, e1, e2⟩, -, -, -⟩ := idx_facts t
  unfold iblk
  rw [View.read_apply]
  show V m c main_v0 _ = V m c main_v0 _
  congr 1
  funext a
  apply Fin.ext
  match a with
  | ⟨0, _⟩ => show win0_0.index t (0 : Fin 3) * 2 + 1 * b.val = 2 * t.val + b.val; rw [e0]; omega
  | ⟨1, _⟩ => show win0_0.index t (1 : Fin 3) * 256 + 1 * p.val = p.val; rw [e1]; omega
  | ⟨2, _⟩ => show win0_0.index t (2 : Fin 3) * 256 + 1 * q.val = q.val; rw [e2]; omega

/-- Image `b` of the second input's block at point `t` is image `2t + b` of the row of 64. -/
theorem iblk1_apply (c : Dev nD) (t : Fin cfg0.N) (b : Fin 2) (p q : Fin 256) :
    (iblk m c 1 t : Vec Ideal S2x256x256 .f32) (ix3 b p q)
      = (V m c main_v1 : S64x256x256.Idx → EReal) (ix3 (⟨2 * t.val + b.val, by have := t_lt t; omega⟩ : Fin 64) p q) := by
  obtain ⟨-, ⟨e0, e1, e2⟩, -, -⟩ := idx_facts t
  unfold iblk
  rw [View.read_apply]
  show V m c main_v1 _ = V m c main_v1 _
  congr 1
  funext a
  apply Fin.ext
  match a with
  | ⟨0, _⟩ => show win0_1.index t (0 : Fin 3) * 2 + 1 * b.val = 2 * t.val + b.val; rw [e0]; omega
  | ⟨1, _⟩ => show win0_1.index t (1 : Fin 3) * 256 + 1 * p.val = p.val; rw [e1]; omega
  | ⟨2, _⟩ => show win0_1.index t (2 : Fin 3) * 256 + 1 * q.val = q.val; rw [e2]; omega

/-- The body's first output buffer, filled from two images that are images `2n`, `2n + 1` of a row `Y` of 64, is
    rows `2n`, `2n + 1` of the taps of `Y`. -/
theorem block2 (X0 X1 : Vec Ideal S2x256x256 .f32) (Y : S64x256x256.Idx → EReal) (n : Nat) (hn : n < 32)
    (hX : ∀ (b : Fin 2) (p q : Fin 256), X0 (ix3 b p q) = Y (ix3 (⟨2 * n + b.val, by omega⟩ : Fin 64) p q))
    (j : S2x9x256x256.Idx) (i : S64x9x256x256.Idx) (hi0 : (i 0).val = 2 * n + (j 0).val) (hi1 : (i 1).val = (j 1).val)
    (hi2 : (i 2).val = (j 2).val) (hi3 : (i 3).val = (j 3).val) :
    out0_2 (F := Ideal) X0 X1 j = Gflat Y i := by
  obtain ⟨b, k, p, q, rfl⟩ : ∃ (b : Fin 2) (k : Fin 9) (p q : Fin 256), j = ix4 b k p q := ⟨j 0, j 1, j 2, j 3, eq_ix4 j⟩
  have hi : i = ix4 (⟨2 * n + b.val, lt64 n b.val hn b.isLt⟩ : Fin 64) k p q := by
    funext a
    match a with
    | ⟨0, _⟩ => exact Fin.ext hi0
    | ⟨1, _⟩ => exact Fin.ext hi1
    | ⟨2, _⟩ => exact Fin.ext hi2
    | ⟨3, _⟩ => exact Fin.ext hi3
  rw [hi]
  rw [Body.out2_apply]
  show tap (fun p q => X0 (ix3 b p q)) k p q = tap (fun p' q' => Y (ix3 (⟨2 * n + b.val, lt64 n b.val hn b.isLt⟩ : Fin 64) p' q')) k p q
  congr 1
  funext p' q'
  exact hX b p' q'

/-- The same for the second output buffer and the second pair of images. -/
theorem block3 (X0 X1 : Vec Ideal S2x256x256 .f32) (Y : S64x256x256.Idx → EReal) (n : Nat) (hn : n < 32)
    (hX : ∀ (b : Fin 2) (p q : Fin 256), X1 (ix3 b p q) = Y (ix3 (⟨2 * n + b.val, by omega⟩ : Fin 64) p q))
    (j : S2x9x256x256.Idx) (i : S64x9x256x256.Idx) (hi0 : (i 0).val = 2 * n + (j 0).val) (hi1 : (i 1).val = (j 1).val)
    (hi2 : (i 2).val = (j 2).val) (hi3 : (i 3).val = (j 3).val) :
    out0_3 (F := Ideal) X0 X1 j = Gflat Y i := by
  obtain ⟨b, k, p, q, rfl⟩ : ∃ (b : Fin 2) (k : Fin 9) (p q : Fin 256), j = ix4 b k p q := ⟨j 0, j 1, j 2, j 3, eq_ix4 j⟩
  have hi : i = ix4 (⟨2 * n + b.val, lt64 n b.val hn b.isLt⟩ : Fin 64) k p q := by
    funext a
    match a with
    | ⟨0, _⟩ => exact Fin.ext hi0
    | ⟨1, _⟩ => exact Fin.ext hi1
    | ⟨2, _⟩ => exact Fin.ext hi2
    | ⟨3, _⟩ => exact Fin.ext hi3
  rw [hi]
  rw [Body.out3_apply]
  show tap (fun p q => X1 (ix3 b p q)) k p q = tap (fun p' q' => Y (ix3 (⟨2 * n + b.val, lt64 n b.val hn b.isLt⟩ : Fin 64) p' q')) k p q
  congr 1
  funext p' q'
  exact hX b p' q'

/-- What point `t` writes back to the first output: block `t` of the taps of the first argument's row of 64. -/
theorem flushed2_eq (c : Dev nD) (t : Fin cfg0.N) :
    (dats m 0 c).flushed 2 t = ((cfg0.win 2).blk t).view.read (Elt Ideal) (Gflat (V m c main_v0 : S64x256x256.Idx → EReal)) := by
  show (cfg0.win 2).cut (grid0.coords t) ((dats m 0 c).after 2 t) = _
  rw [after0_2]
  obtain ⟨-, -, ⟨e0, e1, e2, e3⟩, -⟩ := idx_facts t
  funext j
  show out0_2 (iblk m c 0 t) (iblk m c 1 t) j = Gflat (V m c main_v0 : S64x256x256.Idx → EReal) (((cfg0.win 2).blk t).view.emb j)
  refine block2 _ _ _ t.val (t_lt t) (fun b p q => iblk0_apply m c t b p q) j _ ?_ ?_ ?_ ?_
  · show win0_2.index t (0 : Fin 4) * 2 + 1 * (j 0).val = 2 * t.val + (j 0).val; rw [e0]; omega
  · show win0_2.index t (1 : Fin 4) * 9 + 1 * (j 1).val = (j 1).val; rw [e1]; omega
  · show win0_2.index t (2 : Fin 4) * 256 + 1 * (j 2).val = (j 2).val; rw [e2]; omega
  · show win0_2.index t (3 : Fin 4) * 256 + 1 * (j 3).val = (j 3).val; rw [e3]; omega

/-- What point `t` writes back to the second output: block `t` of the taps of the second argument's row of 64. -/
theorem flushed3_eq (c : Dev nD) (t : Fin cfg0.N) :
    (dats m 0 c).flushed 3 t = ((cfg0.win 3).blk t).view.read (Elt Ideal) (Gflat (V m c main_v1 : S64x256x256.Idx → EReal)) := by
  show (cfg0.win 3).cut (grid0.coords t) ((dats m 0 c).after 3 t) = _
  rw [after0_3]
  obtain ⟨-, -, -, ⟨e0, e1, e2, e3⟩⟩ := idx_facts t
  funext j
  show out0_3 (iblk m c 0 t) (iblk m c 1 t) j = Gflat (V m c main_v1 : S64x256x256.Idx → EReal) (((cfg0.win 3).blk t).view.emb j)
  refine block3 _ _ _ t.val (t_lt t) (fun b p q => iblk1_apply m c t b p q) j _ ?_ ?_ ?_ ?_
  · show win0_3.index t (0 : Fin 4) * 2 + 1 * (j 0).val = 2 * t.val + (j 0).val; rw [e0]; omega
  · show win0_3.index t (1 : Fin 4) * 9 + 1 * (j 1).val = (j 1).val; rw [e1]; omega
  · show win0_3.index t (2 : Fin 4) * 256 + 1 * (j 2).val = (j 2).val; rw [e2]; omega
  · show win0_3.index t (3 : Fin 4) * 256 + 1 * (j 3).val = (j 3).val; rw [e3]; omega

/-- An index of the first output is in point `t`'s block iff each coordinate is in the block's range on its axis. -/
theorem mem_blk2 (t : Fin cfg0.N) (i : S64x9x256x256.Idx) :
    i ∈ ((cfg0.win 2).blk t).view.set ↔ ∀ a : Fin 4, win0_2.index t a * S2x9x256x256.size a ≤ (i a).val ∧ (i a).val < win0_2.index t a * S2x9x256x256.size a + S2x9x256x256.size a := by
  show i ∈ ((View.whole main_v2_0).slice (win0_2.rect t)).set ↔ _
  rw [View.set_slice_whole, Rect.mem_set_unit]
  exact Iff.rfl

theorem mem_blk3 (t : Fin cfg0.N) (i : S64x9x256x256.Idx) :
    i ∈ ((cfg0.win 3).blk t).view.set ↔ ∀ a : Fin 4, win0_3.index t a * S2x9x256x256.size a ≤ (i a).val ∧ (i a).val < win0_3.index t a * S2x9x256x256.size a + S2x9x256x256.size a := by
  show i ∈ ((View.whole main_v2_1).slice (win0_3.rect t)).set ↔ _
  rw [View.set_slice_whole, Rect.mem_set_unit]
  exact Iff.rfl

/-- Every index of the first output lies in the block of the point that holds its image: row `r` in point `r / 2`. -/
theorem cover2 (i : S64x9x256x256.Idx) : ∃ t : Fin cfg0.N, (cfg0.win 2).flush t = true ∧ i ∈ ((cfg0.win 2).blk t).view.set := by
  have h0 : (i 0).val < 64 := (i 0).isLt
  have h1 : (i 1).val < 9 := (i 1).isLt
  have h2 : (i 2).val < 256 := (i 2).isLt
  have h3 : (i 3).val < 256 := (i 3).isLt
  have hN := N32
  refine ⟨⟨(i 0).val / 2, by omega⟩, flush0_2 _, ?_⟩
  rw [mem_blk2]
  obtain ⟨-, -, ⟨e0, e1, e2, e3⟩, -⟩ := idx_facts ⟨(i 0).val / 2, by omega⟩
  intro a
  match a with
  | ⟨0, _⟩ => show win0_2.index _ (0 : Fin 4) * 2 ≤ (i 0).val ∧ (i 0).val < win0_2.index _ (0 : Fin 4) * 2 + 2; rw [e0]; show (i 0).val / 2 * 2 ≤ (i 0).val ∧ (i 0).val < (i 0).val / 2 * 2 + 2; omega
  | ⟨1, _⟩ => show win0_2.index _ (1 : Fin 4) * 9 ≤ (i 1).val ∧ (i 1).val < win0_2.index _ (1 : Fin 4) * 9 + 9; rw [e1]; omega
  | ⟨2, _⟩ => show win0_2.index _ (2 : Fin 4) * 256 ≤ (i 2).val ∧ (i 2).val < win0_2.index _ (2 : Fin 4) * 256 + 256; rw [e2]; omega
  | ⟨3, _⟩ => show win0_2.index _ (3 : Fin 4) * 256 ≤ (i 3).val ∧ (i 3).val < win0_2.index _ (3 : Fin 4) * 256 + 256; rw [e3]; omega

theorem cover3 (i : S64x9x256x256.Idx) : ∃ t : Fin cfg0.N, (cfg0.win 3).flush t = true ∧ i ∈ ((cfg0.win 3).blk t).view.set := by
  have h0 : (i 0).val < 64 := (i 0).isLt
  have h1 : (i 1).val < 9 := (i 1).isLt
  have h2 : (i 2).val < 256 := (i 2).isLt
  have h3 : (i 3).val < 256 := (i 3).isLt
  have hN := N32
  refine ⟨⟨(i 0).val / 2, by omega⟩, flush0_3 _, ?_⟩
  rw [mem_blk3]
  obtain ⟨-, -, -, ⟨e0, e1, e2, e3⟩⟩ := idx_facts ⟨(i 0).val / 2, by omega⟩
  intro a
  match a with
  | ⟨0, _⟩ => show win0_3.index _ (0 : Fin 4) * 2 ≤ (i 0).val ∧ (i 0).val < win0_3.index _ (0 : Fin 4) * 2 + 2; rw [e0]; show (i 0).val / 2 * 2 ≤ (i 0).val ∧ (i 0).val < (i 0).val / 2 * 2 + 2; omega
  | ⟨1, _⟩ => show win0_3.index _ (1 : Fin 4) * 9 ≤ (i 1).val ∧ (i 1).val < win0_3.index _ (1 : Fin 4) * 9 + 9; rw [e1]; omega
  | ⟨2, _⟩ => show win0_3.index _ (2 : Fin 4) * 256 ≤ (i 2).val ∧ (i 2).val < win0_3.index _ (2 : Fin 4) * 256 + 256; rw [e2]; omega
  | ⟨3, _⟩ => show win0_3.index _ (3 : Fin 4) * 256 ≤ (i 3).val ∧ (i 3).val < win0_3.index _ (3 : Fin 4) * 256 + 256; rw [e3]; omega

/-- So the first output array ends holding the taps of the first argument's row of 64, -/
theorem final2 (c : Dev nD) : (dats m 0 c).arrAt 2 cfg0.N = Gflat (V m c main_v0 : S64x256x256.Idx → EReal) :=
  (dats m 0 c).arrAt_eq_of_cover 2 (Gflat (V m c main_v0 : S64x256x256.Idx → EReal)) (fun t _ => flushed2_eq m c t) cover2
/-- and the second those of the second. -/
theorem final3 (c : Dev nD) : (dats m 0 c).arrAt 3 cfg0.N = Gflat (V m c main_v1 : S64x256x256.Idx → EReal) :=
  (dats m 0 c).arrAt_eq_of_cover 3 (Gflat (V m c main_v1 : S64x256x256.Idx → EReal)) (fun t _ => flushed3_eq m c t) cover3

/-- After the region the host splits the first output's row of 64 back into 4 × 16. -/
theorem tail_v3 (c : Dev nD) :
    (Pipeline.afterTail₀ cfgs (dats m) 0 (V0 m) [hostOps1] c main_v3 : S4x16x9x256x256.Idx → EReal)
      = shapeCast S4x16x9x256x256 ((dats m 0 c).arrAt 2 cfg0.N) shapeCasts_S64x9x256x256_S4x16x9x256x256 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2_0)
      = (dats m 0 c).arrAt 2 cfg0.N :=
    Pipeline.withArrays_arr spec0 launch0.win.arr_inj c (V0 m c) _ 2
  funext i
  exact congrArg (fun A : S64x9x256x256.Idx → EReal => shapeCast S4x16x9x256x256 A shapeCasts_S64x9x256x256_S4x16x9x256x256 i) e

/-- And the second output's. -/
theorem tail_v4 (c : Dev nD) :
    (Pipeline.afterTail₀ cfgs (dats m) 0 (V0 m) [hostOps1] c main_v4 : S4x16x9x256x256.Idx → EReal)
      = shapeCast S4x16x9x256x256 ((dats m 0 c).arrAt 3 cfg0.N) shapeCasts_S64x9x256x256_S4x16x9x256x256 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2_1)
      = (dats m 0 c).arrAt 3 cfg0.N :=
    Pipeline.withArrays_arr spec0 launch0.win.arr_inj c (V0 m c) _ 3
  funext i
  exact congrArg (fun A : S64x9x256x256.Idx → EReal => shapeCast S4x16x9x256x256 A shapeCasts_S64x9x256x256_S4x16x9x256x256 i) e

/-- Laying the 4 × 16 images out in one row of 64, taking the taps, and splitting the row back is taking the taps of
    the 4 × 16 images: image `(b, ch)` is image `16 b + ch` of the row. -/
theorem regroup (x : S4x16x256x256.Idx → EReal) :
    shapeCast S4x16x9x256x256 (Gflat (shapeCast S64x256x256 x shapeCasts_S4x16x256x256_S64x256x256))
      shapeCasts_S64x9x256x256_S4x16x9x256x256 = G x := by
  funext i
  obtain ⟨b, ch, k, p, q, rfl⟩ : ∃ (b : Fin 4) (ch : Fin 16) (k : Fin 9) (p q : Fin 256), i = ix5 b ch k p q :=
    ⟨i 0, i 1, i 2, i 3, i 4, eq_ix5 i⟩
  have hlt : b.val * 16 + ch.val < 64 := by omega
  rw [shapeCast_apply _ _ _ (ix4 (⟨b.val * 16 + ch.val, hlt⟩ : Fin 64) k p q) (by
    rw [Shape.rowMajor_val_four, Shape.rowMajor_val_five]; rfl)]
  show tap (fun p' q' => shapeCast S64x256x256 x shapeCasts_S4x16x256x256_S64x256x256 (ix3 (⟨b.val * 16 + ch.val, hlt⟩ : Fin 64) p' q')) k p q
    = tap (fun p' q' => x (ix4 b ch p' q')) k p q
  congr 1
  funext p' q'
  exact shapeCast_apply _ _ _ (ix4 b ch p' q') (by rw [Shape.rowMajor_val_four, Shape.rowMajor_val_three]; rfl)

/-- The first result after the whole program: the nine taps of the first argument's images. -/
theorem value_v3 (c : Dev nD) :
    (Pipeline.afterTail₀ cfgs (dats m) 0 (V0 m) [hostOps1] c main_v3 : S4x16x9x256x256.Idx → EReal)
      = G (m ((c : Thread nD τ).loc main_arg0)) := by
  rw [tail_v3, final2, V_v0]
  exact regroup _

/-- The second result: the nine taps of the second argument's images. -/
theorem value_v4 (c : Dev nD) :
    (Pipeline.afterTail₀ cfgs (dats m) 0 (V0 m) [hostOps1] c main_v4 : S4x16x9x256x256.Idx → EReal)
      = G (m ((c : Thread nD τ).loc main_arg1)) := by
  rw [tail_v4, final3, V_v1]
  exact regroup _

/-- The run, read: both results at the taps of their arguments, the arguments unchanged. -/
theorem run : θ_run defs (onTc (τ := τ) (main (F := Ideal))) ⟨m, fun _ => 0, ρ⟩ fun r => ∀ c : Dev nD,
      r.2.mem ((c.tc : Thread nD τ).loc main_v3) = G (m ((c.tc : Thread nD τ).loc main_arg0))
      ∧ r.2.mem ((c.tc : Thread nD τ).loc main_v4) = G (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 (Pipeline.mem_restRefs_of main_v3 (by decide) (by decide))).trans (value_v3 m c),
     ((h c).2 main_v4 (Pipeline.mem_restRefs_of main_v4 (by decide) (by decide))).trans (value_v4 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Hand

end
-- ==== Proof.LibScatterSet.lean ====
/-
  A host scatter whose body keeps the update (`x.at[i].set(u)`), read at one index of the result.

  The scatter is a left fold over the update's indices: each update index that lands inside the operand overwrites the
  element it lands on. Read at a result index `i`: if exactly one update index lands on `i`, the result there is that
  update's element; if none does, it is the operand's.
-/
import Idealize.ShloMosaic.PureOps.ShapeOps

noncomputable section

namespace Cert.LibScatterSet

open Idealize.ShloMosaic

variable {s si u : Shape} {w : Nat} {α : Type}

/-- One step of the overwriting scatter: the update index numbered `n` overwrites the element it lands on, if any. -/
private def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The overwriting scatter is the left fold of `step` over the update's indices in row-major order. -/
private theorem scatter_eq_foldl (d : ScatterDims s si u) (x : s.Idx → α) (idx : IVec si w) (upd : u.Idx → α) :
    Host.scatter d (fun _ b => b) x idx upd = (List.finRange u.numel).foldl (step d idx upd) x := rfl

/-- A step whose update index lands on `i` leaves the update's element at `i`. -/
private theorem step_apply_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  simp only [step, h, if_true]

/-- A step whose update index does not land on `i` leaves the element at `i` as it was. -/
private theorem step_apply_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  generalize d.resultIdx? (u.rowMajor.symm n) idx = o at h
  cases o with
  | none => rfl
  | some i' =>
    have hne : i ≠ i' := fun e => h (by rw [e])
    simp only [if_neg hne]

/-- Folding steps none of which lands on `i` leaves the element at `i` as it was. -/
private theorem foldl_apply_of_miss (d : ScatterDims s si u) (idx : IVec si w) (upd : u.Idx → α) (i : s.Idx) :
    ∀ (l : List (Fin u.numel)) (r : s.Idx → α),
      (∀ n ∈ l, d.resultIdx? (u.rowMajor.symm n) idx ≠ some i) → l.foldl (step d idx upd) r i = r i
  | [], r, _ => rfl
  | a :: l, r, h => by
    rw [List.foldl_cons, foldl_apply_of_miss d idx upd i l _ (fun n hn => h n (List.mem_cons_of_mem a hn)),
      step_apply_of_ne d idx upd r a i (h a List.mem_cons_self)]

/-- Folding steps of which only `n₀` lands on `i`: once `n₀` has been met (in the list, or already in the
    accumulator), the element at `i` is the update's at `n₀`. -/
private theorem foldl_apply_of_hit (d : ScatterDims s si u) (idx : IVec si w) (upd : u.Idx → α) (i : s.Idx)
    (n₀ : Fin u.numel) (h₀ : d.resultIdx? (u.rowMajor.symm n₀) idx = some i) :
    ∀ (l : List (Fin u.numel)) (r : s.Idx → α),
      (∀ n ∈ l, d.resultIdx? (u.rowMajor.symm n) idx = some i → n = n₀) →
      (n₀ ∈ l ∨ r i = upd (u.rowMajor.symm n₀)) → l.foldl (step d idx upd) r i = upd (u.rowMajor.symm n₀)
  | [], r, _, hr => by
    rcases hr with hr | hr
    · cases hr
    · exact hr
  | a :: l, r, h, hr => by
    rw [List.foldl_cons]
    refine foldl_apply_of_hit d idx upd i n₀ h₀ l _ (fun n hn => h n (List.mem_cons_of_mem a hn)) ?_
    by_cases ha : d.resultIdx? (u.rowMajor.symm a) idx = some i
    · right
      rw [step_apply_of_eq d idx upd r a i ha, h a List.mem_cons_self ha]
    · rw [step_apply_of_ne d idx upd r a i ha]
      rcases hr with hr | hr
      · rcases List.mem_cons.1 hr with e | hl
        · exact absurd (e ▸ h₀) ha
        · exact Or.inl hl
      · exact Or.inr hr

/-- Where exactly one update index `j` lands on `i`, the overwriting scatter holds the update's element at `j`. -/
theorem scatter_set_apply_of_hit (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  have h₀ : d.resultIdx? (u.rowMajor.symm (u.rowMajor j)) idx = some i := by rw [Equiv.symm_apply_apply]; exact hj
  rw [scatter_eq_foldl, foldl_apply_of_hit d idx upd i (u.rowMajor j) h₀ _ x ?_ (Or.inl (List.mem_finRange _)),
    Equiv.symm_apply_apply]
  intro n _ hn
  rw [← huniq _ hn, Equiv.apply_symm_apply]

/-- Where no update index lands on `i`, the overwriting scatter keeps the operand's element. -/
theorem scatter_set_apply_of_miss (d : ScatterDims s si u) (x : s.Idx → α) (idx : IVec si w) (upd : u.Idx → α)
    (i : s.Idx) (h : ∀ j', d.resultIdx? j' idx ≠ some i) :
    Host.scatter d (fun _ b => b) x idx upd i = x i := by
  rw [scatter_eq_foldl]
  exact foldl_apply_of_miss d idx upd i _ x (fun n _ => h _)

end Cert.LibScatterSet

end
-- ==== Proof.RefCentre.lean ====
/-
  The reference's last step: the stacked products with the centre tap overwritten by the image itself
  (`(roll * mid).at[:, :, 4].set(roll[:, :, 4])`), read at an index. The scatter has one start index, the word 4 on the
  tap axis, and its window is a whole [4, 16, 256, 256] array: update index `(b, c, p, q)` lands on `(b, c, 4, p, q)`.
-/
import proofs.«149121_j76270029242959_1_alg».proof.Proof.Gen.ReferenceIdeal.Read
import proofs.«149121_j76270029242959_1_alg».proof.Proof.LibScatterSet
import Idealize.ShloMosaic.Lib.ValueIdx

noncomputable section

namespace Cert.ReferenceIdeal.RefTaps

open Cert.ReferenceIdeal Cert.ReferenceIdeal.Gen Idealize.ShloMosaic Idealize.ShloMosaic.ValueIdx

local notation "D" => scatter_S4x16x9x256x256_S1_S4x16x256x256_0123_2_2_0

/-! ## The scatter's dimension numbers, axis by axis

The start index is read on the tap axis (axis 2) only; the window covers the four other axes. -/

/-- On the tap axis the window starts at the index word, 4. -/
private theorem start_2 (idx : IVec S1 32) (hidx : ∀ k, idx k = 4#32) (j : S4x16x256x256.Idx) :
    ScatterDims.start D j idx (2 : Fin 5) = 4 := by
  unfold ScatterDims.start
  rw [dif_pos (by decide), hidx]
  rfl

/-- On every other axis the window starts at 0. -/
private theorem start_ne (idx : IVec S1 32) (j : S4x16x256x256.Idx) (a : Fin 5) (ha : a ≠ 2) :
    ScatterDims.start D j idx a = 0 := by
  unfold ScatterDims.start
  rw [dif_neg]
  revert a; decide

private theorem window_0 (j : S4x16x256x256.Idx) : ScatterDims.window D j (0 : Fin 5) = (j 0).val := by
  unfold ScatterDims.window
  rw [dif_pos (by decide)]
  rfl
private theorem window_1 (j : S4x16x256x256.Idx) : ScatterDims.window D j (1 : Fin 5) = (j 1).val := by
  unfold ScatterDims.window
  rw [dif_pos (by decide)]
  rfl
/-- The tap axis is an inserted one: the window has no extent there. -/
private theorem window_2 (j : S4x16x256x256.Idx) : ScatterDims.window D j (2 : Fin 5) = 0 := by
  unfold ScatterDims.window
  rw [dif_neg (by decide)]
private theorem window_3 (j : S4x16x256x256.Idx) : ScatterDims.window D j (3 : Fin 5) = (j 2).val := by
  unfold ScatterDims.window
  rw [dif_pos (by decide)]
  rfl
private theorem window_4 (j : S4x16x256x256.Idx) : ScatterDims.window D j (4 : Fin 5) = (j 3).val := by
  unfold ScatterDims.window
  rw [dif_pos (by decide)]
  rfl

/-- Start plus window coordinate, on every axis: the coordinates of `(b, c, 4, p, q)`. -/
private theorem start_add_window (idx : IVec S1 32) (hidx : ∀ k, idx k = 4#32) (j : S4x16x256x256.Idx) (a : Fin 5) :
    ScatterDims.start D j idx a + (ScatterDims.window D j a : Int)
      = (((ix5 (j 0 : Fin 4) (j 1 : Fin 16) (4 : Fin 9) (j 2 : Fin 256) (j 3 : Fin 256) : S4x16x9x256x256.Idx) a).val : Int) := by
  have key : ∀ a : Fin 5, a = 0 ∨ a = 1 ∨ a = 2 ∨ a = 3 ∨ a = 4 := by decide
  rcases key a with rfl | rfl | rfl | rfl | rfl
  · rw [start_ne idx j 0 (by decide), window_0, zero_add]
  · rw [start_ne idx j 1 (by decide), window_1, zero_add]
  · rw [start_2 idx hidx j, window_2]; rfl
  · rw [start_ne idx j 3 (by decide), window_3, zero_add]
  · rw [start_ne idx j 4 (by decide), window_4, zero_add]

/-- Update index `(b, c, p, q)` lands on `(b, c, 4, p, q)`, always inside the operand. -/
private theorem resultIdx_centre (idx : IVec S1 32) (hidx : ∀ k, idx k = 4#32) (j : S4x16x256x256.Idx) :
    ScatterDims.resultIdx? D j idx
      = some (ix5 (j 0 : Fin 4) (j 1 : Fin 16) (4 : Fin 9) (j 2 : Fin 256) (j 3 : Fin 256)) := by
  unfold ScatterDims.resultIdx?
  rw [dif_pos (fun a => by
    rw [start_add_window idx hidx j a]
    exact ⟨Int.natCast_nonneg _, Int.ofNat_lt.2 (Fin.isLt _)⟩)]
  refine congrArg some (funext fun a => Fin.ext ?_)
  show (ScatterDims.start D j idx a + (ScatterDims.window D j a : Int)).toNat = _
  rw [start_add_window idx hidx j a, Int.toNat_natCast]
  rfl

/-- The overwriting scatter at start index 4 on the tap axis: tap 4 is the update, every other tap the operand. -/
theorem scatter_centre {α : Type} (x : S4x16x9x256x256.Idx → α) (idx : IVec S1 32) (hidx : ∀ k, idx k = 4#32)
    (upd : S4x16x256x256.Idx → α) (i : S4x16x9x256x256.Idx) :
    Host.scatter scatter_S4x16x9x256x256_S1_S4x16x256x256_0123_2_2_0 (fun _ b => b) x idx upd i
      = if (i 2).val = 4 then upd (ix4 (i 0 : Fin 4) (i 1 : Fin 16) (i 3 : Fin 256) (i 4 : Fin 256)) else x i := by
  by_cases h4 : (i 2).val = 4
  · rw [if_pos h4]
    -- the one update index that lands on `i` is `(i 0, i 1, i 3, i 4)`
    have hi : i = ix5 (i 0 : Fin 4) (i 1 : Fin 16) (4 : Fin 9) (i 3 : Fin 256) (i 4 : Fin 256) := by
      have h2 : (i 2 : Fin 9) = (4 : Fin 9) := Fin.ext h4
      refine (eq_ix5 i).trans ?_
      rw [h2]
      rfl
    refine Cert.LibScatterSet.scatter_set_apply_of_hit D x idx upd i _ ?_ ?_
    · rw [resultIdx_centre idx hidx]
      exact congrArg some hi.symm
    · intro j' hj'
      have e : ix5 (j' 0 : Fin 4) (j' 1 : Fin 16) (4 : Fin 9) (j' 2 : Fin 256) (j' 3 : Fin 256) = i :=
        Option.some.inj ((resultIdx_centre idx hidx j').symm.trans hj')
      subst e
      exact eq_ix4 j'
  · rw [if_neg h4]
    -- every update index lands on tap 4, so none lands on `i`
    refine Cert.LibScatterSet.scatter_set_apply_of_miss D x idx upd i fun j' hj' => h4 ?_
    have e : ix5 (j' 0 : Fin 4) (j' 1 : Fin 16) (4 : Fin 9) (j' 2 : Fin 256) (j' 3 : Fin 256) = i :=
      Option.some.inj ((resultIdx_centre idx hidx j').symm.trans hj')
    subst e
    rfl

end Cert.ReferenceIdeal.RefTaps

end
-- ==== Proof.RefValue.lean ====
/-
  The reference's two results are the nine taps of the neighbourhood product of its two arguments: pad by a ring of
  zeros, cut the nine shifted copies, stack them on a new axis, multiply by the centre copy, and put the centre copy
  itself back at tap 4.

  Read at an index `(b, c, k, p, q)`: the stack's piece `k = 3·ki + kj` is the slice of the padded array at offsets
  `(ki, kj)`, so it holds the padded array at `(b, c, ki + p, kj + q)`; the padded array there is the image at
  `(p + ki − 1, q + kj − 1)` inside the image and the padding value, the integer 0 converted, which is 0, in the ring.
  The centre piece `k = 4` is the image itself, so the product is neighbour times pixel, and the scatter writes the
  pixel back at tap 4. The second result is the same term over the second argument.
-/
import proofs.«149121_j76270029242959_1_alg».proof.Proof.Gen.ReferenceIdeal.Read
import proofs.«149121_j76270029242959_1_alg».proof.Proof.RefCentre
import proofs.«149121_j76270029242959_1_alg».proof.Proof.Taps
import Idealize.ShloMosaic.Lib.KernelVsHost

noncomputable section

namespace Cert.ReferenceIdeal.RefTaps

open Cert.ReferenceIdeal Cert.ReferenceIdeal.Gen Cert.ReferenceIdeal.Read Idealize.ShloMosaic Idealize.ShloMosaic.ValueIdx

/-- The padded array at an index whose row is `ki + p` and column `kj + q`: the image at `(p + ki − 1, q + kj − 1)` where
    that pixel exists, and the padding value, which is 0, on the ring. -/
private theorem pad_read (x : FVec Ideal S4x16x256x256 .f32) (b : Fin 4) (c : Fin 16) (ki kj : Nat) (p q : Fin 256)
    (j : S4x16x258x258.Idx) (hb : (j 0).val = b.val) (hc : (j 1).val = c.val)
    (hr : (j 2).val = ki + p.val) (hs : (j 3).val = kj + q.val) :
    val_main_v0 (F := Ideal) x j = Cert.Taps.nbr (fun p q => x (ix4 b c p q)) ki kj p q := by
  have hp := p.isLt
  have hq := q.isLt
  unfold Cert.Taps.nbr val_main_v0
  by_cases h : (1 ≤ p.val + ki ∧ p.val + ki ≤ 256) ∧ (1 ≤ q.val + kj ∧ q.val + kj ≤ 256)
  · rw [dif_pos h]
    exact pad_apply_of_inside _ _ _ x _ _ _ j (ix4 b c ⟨p.val + ki - 1, by omega⟩ ⟨q.val + kj - 1, by omega⟩)
      (fun a => match a with
        | ⟨0, _⟩ => by show (j 0).val = 0 + b.val * (0 + 1); omega
        | ⟨1, _⟩ => by show (j 1).val = 0 + c.val * (0 + 1); omega
        | ⟨2, _⟩ => by show (j 2).val = 1 + (p.val + ki - 1) * (0 + 1); omega
        | ⟨3, _⟩ => by show (j 3).val = 1 + (q.val + kj - 1) * (0 + 1); omega)
  · rw [dif_neg h]
    have hz : val_main_call0_v0 (F := Ideal) (Shape.Idx.first h_S_) = 0 := sitofp_zero (φ := .f32)
    by_cases h2 : 1 ≤ p.val + ki ∧ p.val + ki ≤ 256
    · refine (pad_apply_of_not_inside _ _ _ x _ _ _ j (3 : Fin 4) ?_).trans hz
      show ¬(1 ≤ (j 3).val ∧ ((j 3).val - 1) % (0 + 1) = 0 ∧ ((j 3).val - 1) / (0 + 1) < 256)
      omega
    · refine (pad_apply_of_not_inside _ _ _ x _ _ _ j (2 : Fin 4) ?_).trans hz
      show ¬(1 ≤ (j 2).val ∧ ((j 2).val - 1) % (0 + 1) = 0 ∧ ((j 2).val - 1) / (0 + 1) < 256)
      omega

/-- Piece 0 of the stack: the padded array at row offset 0, column offset 0. -/
private theorem stack0 (x : FVec Ideal S4x16x256x256 .f32) (b : Fin 4) (c : Fin 16) (p q : Fin 256) :
    val_main_v19 (F := Ideal) x (ix5 b c (⟨0, by omega⟩ : Fin 9) p q)
      = Cert.Taps.nbr (fun p q => x (ix4 b c p q)) (0 / 3) (0 % 3) p q := by
  unfold val_main_v19
  refine (concatenate_apply_piece (2 : Fin 5) _ _ (ix5 b c (⟨0, by omega⟩ : Fin 9) p q) 0 (by simp) S4x16x1x256x256
    (val_main_v10 (F := Ideal) x) rfl rfl 0 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v10_apply (F := Ideal) x _).trans ?_
  refine (val_main_v1_apply (F := Ideal) x _).trans ?_
  exact pad_read x b c 0 0 p q _ rfl rfl (Nat.zero_add _).symm (Nat.zero_add _).symm

/-- Piece 1 of the stack: the padded array at row offset 0, column offset 1. -/
private theorem stack1 (x : FVec Ideal S4x16x256x256 .f32) (b : Fin 4) (c : Fin 16) (p q : Fin 256) :
    val_main_v19 (F := Ideal) x (ix5 b c (⟨1, by omega⟩ : Fin 9) p q)
      = Cert.Taps.nbr (fun p q => x (ix4 b c p q)) (1 / 3) (1 % 3) p q := by
  unfold val_main_v19
  refine (concatenate_apply_piece (2 : Fin 5) _ _ (ix5 b c (⟨1, by omega⟩ : Fin 9) p q) 1 (by simp) S4x16x1x256x256
    (val_main_v11 (F := Ideal) x) rfl rfl 1 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v11_apply (F := Ideal) x _).trans ?_
  refine (val_main_v2_apply (F := Ideal) x _).trans ?_
  exact pad_read x b c 0 1 p q _ rfl rfl (Nat.zero_add _).symm rfl

/-- Piece 2 of the stack: the padded array at row offset 0, column offset 2. -/
private theorem stack2 (x : FVec Ideal S4x16x256x256 .f32) (b : Fin 4) (c : Fin 16) (p q : Fin 256) :
    val_main_v19 (F := Ideal) x (ix5 b c (⟨2, by omega⟩ : Fin 9) p q)
      = Cert.Taps.nbr (fun p q => x (ix4 b c p q)) (2 / 3) (2 % 3) p q := by
  unfold val_main_v19
  refine (concatenate_apply_piece (2 : Fin 5) _ _ (ix5 b c (⟨2, by omega⟩ : Fin 9) p q) 2 (by simp) S4x16x1x256x256
    (val_main_v12 (F := Ideal) x) rfl rfl 2 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v12_apply (F := Ideal) x _).trans ?_
  refine (val_main_v3_apply (F := Ideal) x _).trans ?_
  exact pad_read x b c 0 2 p q _ rfl rfl (Nat.zero_add _).symm rfl

/-- Piece 3 of the stack: the padded array at row offset 1, column offset 0. -/
private theorem stack3 (x : FVec Ideal S4x16x256x256 .f32) (b : Fin 4) (c : Fin 16) (p q : Fin 256) :
    val_main_v19 (F := Ideal) x (ix5 b c (⟨3, by omega⟩ : Fin 9) p q)
      = Cert.Taps.nbr (fun p q => x (ix4 b c p q)) (3 / 3) (3 % 3) p q := by
  unfold val_main_v19
  refine (concatenate_apply_piece (2 : Fin 5) _ _ (ix5 b c (⟨3, by omega⟩ : Fin 9) p q) 3 (by simp) S4x16x1x256x256
    (val_main_v13 (F := Ideal) x) rfl rfl 3 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v13_apply (F := Ideal) x _).trans ?_
  refine (val_main_v4_apply (F := Ideal) x _).trans ?_
  exact pad_read x b c 1 0 p q _ rfl rfl rfl (Nat.zero_add _).symm

/-- Piece 4 of the stack: the padded array at row offset 1, column offset 1. -/
private theorem stack4 (x : FVec Ideal S4x16x256x256 .f32) (b : Fin 4) (c : Fin 16) (p q : Fin 256) :
    val_main_v19 (F := Ideal) x (ix5 b c (⟨4, by omega⟩ : Fin 9) p q)
      = Cert.Taps.nbr (fun p q => x (ix4 b c p q)) (4 / 3) (4 % 3) p q := by
  unfold val_main_v19
  refine (concatenate_apply_piece (2 : Fin 5) _ _ (ix5 b c (⟨4, by omega⟩ : Fin 9) p q) 4 (by simp) S4x16x1x256x256
    (val_main_v14 (F := Ideal) x) rfl rfl 4 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v14_apply (F := Ideal) x _).trans ?_
  refine (val_main_v5_apply (F := Ideal) x _).trans ?_
  exact pad_read x b c 1 1 p q _ rfl rfl rfl rfl

/-- Piece 5 of the stack: the padded array at row offset 1, column offset 2. -/
private theorem stack5 (x : FVec Ideal S4x16x256x256 .f32) (b : Fin 4) (c : Fin 16) (p q : Fin 256) :
    val_main_v19 (F := Ideal) x (ix5 b c (⟨5, by omega⟩ : Fin 9) p q)
      = Cert.Taps.nbr (fun p q => x (ix4 b c p q)) (5 / 3) (5 % 3) p q := by
  unfold val_main_v19
  refine (concatenate_apply_piece (2 : Fin 5) _ _ (ix5 b c (⟨5, by omega⟩ : Fin 9) p q) 5 (by simp) S4x16x1x256x256
    (val_main_v15 (F := Ideal) x) rfl rfl 5 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v15_apply (F := Ideal) x _).trans ?_
  refine (val_main_v6_apply (F := Ideal) x _).trans ?_
  exact pad_read x b c 1 2 p q _ rfl rfl rfl rfl

/-- Piece 6 of the stack: the padded array at row offset 2, column offset 0. -/
private theorem stack6 (x : FVec Ideal S4x16x256x256 .f32) (b : Fin 4) (c : Fin 16) (p q : Fin 256) :
    val_main_v19 (F := Ideal) x (ix5 b c (⟨6, by omega⟩ : Fin 9) p q)
      = Cert.Taps.nbr (fun p q => x (ix4 b c p q)) (6 / 3) (6 % 3) p q := by
  unfold val_main_v19
  refine (concatenate_apply_piece (2 : Fin 5) _ _ (ix5 b c (⟨6, by omega⟩ : Fin 9) p q) 6 (by simp) S4x16x1x256x256
    (val_main_v16 (F := Ideal) x) rfl rfl 6 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v16_apply (F := Ideal) x _).trans ?_
  refine (val_main_v7_apply (F := Ideal) x _).trans ?_
  exact pad_read x b c 2 0 p q _ rfl rfl rfl (Nat.zero_add _).symm

/-- Piece 7 of the stack: the padded array at row offset 2, column offset 1. -/
private theorem stack7 (x : FVec Ideal S4x16x256x256 .f32) (b : Fin 4) (c : Fin 16) (p q : Fin 256) :
    val_main_v19 (F := Ideal) x (ix5 b c (⟨7, by omega⟩ : Fin 9) p q)
      = Cert.Taps.nbr (fun p q => x (ix4 b c p q)) (7 / 3) (7 % 3) p q := by
  unfold val_main_v19
  refine (concatenate_apply_piece (2 : Fin 5) _ _ (ix5 b c (⟨7, by omega⟩ : Fin 9) p q) 7 (by simp) S4x16x1x256x256
    (val_main_v17 (F := Ideal) x) rfl rfl 7 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v17_apply (F := Ideal) x _).trans ?_
  refine (val_main_v8_apply (F := Ideal) x _).trans ?_
  exact pad_read x b c 2 1 p q _ rfl rfl rfl rfl

/-- Piece 8 of the stack: the padded array at row offset 2, column offset 2. -/
private theorem stack8 (x : FVec Ideal S4x16x256x256 .f32) (b : Fin 4) (c : Fin 16) (p q : Fin 256) :
    val_main_v19 (F := Ideal) x (ix5 b c (⟨8, by omega⟩ : Fin 9) p q)
      = Cert.Taps.nbr (fun p q => x (ix4 b c p q)) (8 / 3) (8 % 3) p q := by
  unfold val_main_v19
  refine (concatenate_apply_piece (2 : Fin 5) _ _ (ix5 b c (⟨8, by omega⟩ : Fin 9) p q) 8 (by simp) S4x16x1x256x256
    (val_main_v18 (F := Ideal) x) rfl rfl 8 rfl (ix5 b c (⟨0, by omega⟩ : Fin 1) p q)
    (fun a h => match a, h with
      | ⟨0, _⟩, _ => rfl
      | ⟨1, _⟩, _ => rfl
      | ⟨2, _⟩, h => absurd rfl h
      | ⟨3, _⟩, _ => rfl
      | ⟨4, _⟩, _ => rfl) rfl).trans ?_
  refine (val_main_v18_apply (F := Ideal) x _).trans ?_
  refine (val_main_v9_apply (F := Ideal) x _).trans ?_
  exact pad_read x b c 2 2 p q _ rfl rfl rfl rfl

/-- The stack at a pixel: tap `k` is the padded image read at row offset `k / 3`, column offset `k % 3`. -/
private theorem stack_apply (x : FVec Ideal S4x16x256x256 .f32) (b : Fin 4) (c : Fin 16) (k : Fin 9) (p q : Fin 256) :
    val_main_v19 (F := Ideal) x (ix5 b c k p q)
      = Cert.Taps.nbr (fun p q => x (ix4 b c p q)) (k.val / 3) (k.val % 3) p q := by
  obtain ⟨k, hk⟩ := k
  interval_cases k
  · exact stack0 x b c p q
  · exact stack1 x b c p q
  · exact stack2 x b c p q
  · exact stack3 x b c p q
  · exact stack4 x b c p q
  · exact stack5 x b c p q
  · exact stack6 x b c p q
  · exact stack7 x b c p q
  · exact stack8 x b c p q

/-- The centre piece of the stack is the image itself. -/
private theorem centre_apply (x : FVec Ideal S4x16x256x256 .f32) (b : Fin 4) (c : Fin 16) (p q : Fin 256) :
    val_main_v19 (F := Ideal) x (ix5 b c (⟨4, by omega⟩ : Fin 9) p q) = x (ix4 b c p q) := by
  have hp := p.isLt
  have hq := q.isLt
  refine (stack4 x b c p q).trans ?_
  unfold Cert.Taps.nbr
  rw [dif_pos (by omega)]
  have e1 : (⟨p.val + 4 / 3 - 1, by omega⟩ : Fin 256) = p := Fin.ext (by show p.val + 4 / 3 - 1 = p.val; omega)
  have e2 : (⟨q.val + 4 % 3 - 1, by omega⟩ : Fin 256) = q := Fin.ext (by show q.val + 4 % 3 - 1 = q.val; omega)
  show x (ix4 b c ⟨p.val + 4 / 3 - 1, _⟩ ⟨q.val + 4 % 3 - 1, _⟩) = x (ix4 b c p q)
  rw [e1, e2]

/-- The first result: the nine taps of the first argument. -/
theorem ref_out0 (x : FVec Ideal S4x16x256x256 .f32) : val_main_v47 (F := Ideal) x = Cert.Taps.G x := by
  funext i
  obtain ⟨b, c, k, p, q, rfl⟩ : ∃ b c k p q, i = ix5 b c k p q := ⟨i 0, i 1, i 2, i 3, i 4, eq_ix5 i⟩
  have hb := b.isLt
  have hc := c.isLt
  have hp := p.isLt
  have hq := q.isLt
  -- the scatter's one start index is the word 4
  have hidx : ∀ n, val_main_v46 (F := Ideal) n = 4#32 := fun n =>
    (val_main_v46_apply (F := Ideal) n).trans (val_main_c_1_apply _)
  -- the update: the centre piece with its unit axis dropped
  have h45 : val_main_v45 (F := Ideal) x (ix4 b c p q) = x (ix4 b c p q) := by
    refine (val_main_v45_apply (F := Ideal) x _).trans ?_
    refine (val_main_v44_apply (F := Ideal) x _).trans ?_
    refine Eq.trans (congrArg (val_main_v19 (F := Ideal) x) ?_) (centre_apply x b c p q)
    funext a
    match a with
    | ⟨0, _⟩ => exact Fin.ext (by show (((b.val * 16 + c.val) * 256 + p.val) * 256 + q.val) / 1048576 = b.val; omega)
    | ⟨1, _⟩ => exact Fin.ext (by show (((b.val * 16 + c.val) * 256 + p.val) * 256 + q.val) / 65536 % 16 = c.val; omega)
    | ⟨2, _⟩ => exact Fin.ext (by show 4 + 0 = 4; rfl)
    | ⟨3, _⟩ => exact Fin.ext (by show (((b.val * 16 + c.val) * 256 + p.val) * 256 + q.val) / 256 % 256 = p.val; omega)
    | ⟨4, _⟩ => exact Fin.ext (by show (((b.val * 16 + c.val) * 256 + p.val) * 256 + q.val) % 256 = q.val; omega)
  -- the multiplier: the centre piece copied to every tap
  have h42 : val_main_v42 (F := Ideal) x (ix5 b c k p q) = x (ix4 b c p q) := by
    refine (val_main_v42_apply (F := Ideal) x _).trans ?_
    refine (val_main_v40_apply (F := Ideal) x _).trans ?_
    refine Eq.trans (congrArg (val_main_v19 (F := Ideal) x) ?_) (centre_apply x b c p q)
    funext a
    match a with
    | ⟨0, _⟩ => rfl
    | ⟨1, _⟩ => rfl
    | ⟨2, _⟩ => rfl
    | ⟨3, _⟩ => rfl
    | ⟨4, _⟩ => rfl
  unfold val_main_v47
  refine (scatter_centre _ _ hidx _ _).trans ?_
  show (if k.val = 4 then val_main_v45 (F := Ideal) x (ix4 b c p q) else val_main_v43 (F := Ideal) x (ix5 b c k p q))
    = Cert.Taps.tap (fun p q => x (ix4 b c p q)) k p q
  unfold Cert.Taps.tap
  by_cases hk : k.val = 4
  · rw [if_pos hk, if_pos hk]
    exact h45
  · rw [if_neg hk, if_neg hk]
    show val_main_v19 (F := Ideal) x (ix5 b c k p q) * val_main_v42 (F := Ideal) x (ix5 b c k p q) = _
    rw [stack_apply x b c k p q, h42]

/-- The second result is the same composition of operations over the second argument. -/
theorem ref_out1 (x : FVec Ideal S4x16x256x256 .f32) : val_main_v53 (F := Ideal) x = Cert.Taps.G x :=
  (rfl : val_main_v53 (F := Ideal) x = val_main_v47 (F := Ideal) x).trans (ref_out0 x)

end Cert.ReferenceIdeal.RefTaps

end
-- ==== Proof.lean ====
/-
  The nine taps of the 3 × 3 neighbourhood product, kernel against reference, over the extended reals.

  For each of 4 × 16 images `x` of 256 × 256 numbers and each tap `k = 3·ki + kj`, the result at pixel `(p, q)` is the
  zero-padded image at `(p + ki − 1, q + kj − 1)` times `x (p, q)`, except at the centre tap `k = 4`, where it is
  `x (p, q)` itself (`Cert.Taps.G`). The kernel builds each neighbour by shifting rows and columns of the image with a zero
  row or column entering, two images per grid point, over a row of 64 images that the host regroups before and after
  (`Cert.KernelIdeal.Hand.run`); the reference pads, cuts nine slices, stacks them, multiplies by the centre slice and
  puts the centre slice back at tap 4 (`Cert.ReferenceIdeal.RefTaps.ref_out0`, `ref_out1`). Both multiply neighbour
  by pixel in that order, so the two results are the same function of the arguments and no law of the extended reals
  is used; the precondition is never opened. Both programs leave their arguments unchanged. The ideal pass rewrote
  nothing, so the kernel's idealization is its own text.
-/
import proofs.«149121_j76270029242959_1_alg».proof.Defs
import proofs.«149121_j76270029242959_1_alg».proof.Proof.Gen.Kernel
import proofs.«149121_j76270029242959_1_alg».proof.Proof.Gen.Kernel.Skeleton
import proofs.«149121_j76270029242959_1_alg».proof.Proof.Gen.Kernel.Launch
import proofs.«149121_j76270029242959_1_alg».proof.Proof.Gen.Kernel.Points
import proofs.«149121_j76270029242959_1_alg».proof.Proof.Gen.Kernel.Frame
import proofs.«149121_j76270029242959_1_alg».proof.Proof.Gen.KernelIdeal
import proofs.«149121_j76270029242959_1_alg».proof.Proof.Gen.KernelIdeal.Skeleton
import proofs.«149121_j76270029242959_1_alg».proof.Proof.Gen.KernelIdeal.Launch
import proofs.«149121_j76270029242959_1_alg».proof.Proof.Gen.KernelIdeal.Points
import proofs.«149121_j76270029242959_1_alg».proof.Proof.Gen.KernelIdeal.Frame
import proofs.«149121_j76270029242959_1_alg».proof.Proof.Gen.ReferenceIdeal
import proofs.«149121_j76270029242959_1_alg».proof.Proof.Gen.ReferenceIdeal.Run
import proofs.«149121_j76270029242959_1_alg».proof.Proof.Gen.ReferenceIdeal.Read
import proofs.«149121_j76270029242959_1_alg».proof.Proof.Gen.Pre_finite_inputs
import proofs.«149121_j76270029242959_1_alg».proof.Proof.KernelTaps
import proofs.«149121_j76270029242959_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- No operation was rewritten. -/
theorem preserves : Cert.preserves_Kernel_KernelIdeal := trivial

/-- Both programs end with the nine taps of each argument's images in their two results. -/
theorem algebraic : Cert.algebraic_KernelIdeal_ReferenceIdeal := by
  intro m ρ m' ρ' _ hagree
  refine ⟨fun c => Cert.Taps.G (m ((c.tc : Thread Cert.KernelIdeal.nD Cert.KernelIdeal.τ).loc Cert.KernelIdeal.main_arg0)),
    fun c => Cert.Taps.G (m ((c.tc : Thread Cert.KernelIdeal.nD Cert.KernelIdeal.τ).loc Cert.KernelIdeal.main_arg1)),
    Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v47_eq, Cert.ReferenceIdeal.RefTaps.ref_out0, (hagree c).1]
  · rw [Cert.ReferenceIdeal.Read.val_main_v53_eq, Cert.ReferenceIdeal.RefTaps.ref_out1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
